-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x2 : Shape := ⟨2, ![4000000, 2]⟩
abbrev S4000000x5x5 : Shape := ⟨3, ![4000000, 5, 5]⟩
abbrev S4000000x5 : Shape := ⟨2, ![4000000, 5]⟩
abbrev S_ : Shape := ⟨0, ![]⟩

class Facts : Prop where
  bcast_S_S4000000x5x5 : S_.BroadcastsInDim S4000000x5x5 (![] : Fin 0 → Fin S4000000x5x5.rank)
  reducesTo_S4000000x5x5_S_d0_1_2 : S4000000x5x5.ReducesTo [0, 1, 2] S_
  h_S_ : 0 < S_.numel
  bcast_S_S4000000x5 : S_.BroadcastsInDim S4000000x5 (![] : Fin 0 → Fin S4000000x5.rank)
  reducesTo_S4000000x5_S_d0_1 : S4000000x5.ReducesTo [0, 1] S_

variable [Facts]

def fn {F : FTy → Type} [FloatOps F] (main_arg0 : IVec S4000000x2 32) (main_arg1 : FVec F S4000000x5x5 .f32) (main_arg2 : FVec F S4000000x5 .f32) : IVec S_ 1 :=
  let main_v0 : FVec F S4000000x5x5 .f32 := Host.absf main_arg1
  let main_cst : FVec F S_ .f32 := constant S_ .f32 0x7F800000#32
  let main_v1 : FVec F S4000000x5x5 .f32 := broadcastInDim S4000000x5x5 ![] bcast_S_S4000000x5x5 main_cst
  let main_v2 : IVec S4000000x5x5 1 := cmpf .olt main_v0 main_v1
  let main_c : IVec S_ 1 := constantI S_ 1 1#1
  let main_v3 : IVec S_ 1 := (fun x v => Host.reduce IntOp.andi x v reducesTo_S4000000x5x5_S_d0_1_2 h_S_) main_v2 main_c
  let main_v4 : FVec F S4000000x5 .f32 := Host.absf main_arg2
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  main_v8
-- ==== Kernel.lean ====
abbrev S4000000x2 : Shape := ⟨2, ![4000000, 2]⟩
abbrev S4000000x5x5 : Shape := ⟨3, ![4000000, 5, 5]⟩
abbrev S4000000x5 : Shape := ⟨2, ![4000000, 5]⟩
abbrev S2x4000000 : Shape := ⟨2, ![2, 4000000]⟩
abbrev S4000000x25 : Shape := ⟨2, ![4000000, 25]⟩
abbrev S25x4000000 : Shape := ⟨2, ![25, 4000000]⟩
abbrev S5x4000000 : Shape := ⟨2, ![5, 4000000]⟩
abbrev S2x32000 : Shape := ⟨2, ![2, 32000]⟩
abbrev S25x32000 : Shape := ⟨2, ![25, 32000]⟩
abbrev S5x32000 : Shape := ⟨2, ![5, 32000]⟩
abbrev S1x32000 : Shape := ⟨2, ![1, 32000]⟩
abbrev S32000 : Shape := ⟨1, ![32000]⟩

abbrev nBuf : Space → Nat
  | .hbm => 9
  | .vmem => 8
  | .smem => 0
  | _ => 0

abbrev bufTy : (tb : Table) → Fin (tcTables nBuf tb) → BufTy
  | .hbm, ⟨0, _⟩ => ⟨S4000000x2, .i32⟩
  | .hbm, ⟨1, _⟩ => ⟨S4000000x5x5, .f32⟩
  | .hbm, ⟨2, _⟩ => ⟨S4000000x5, .f32⟩
  | .hbm, ⟨3, _⟩ => ⟨S2x4000000, .i32⟩
  | .hbm, ⟨4, _⟩ => ⟨S4000000x25, .f32⟩
  | .hbm, ⟨5, _⟩ => ⟨S25x4000000, .f32⟩
  | .hbm, ⟨6, _⟩ => ⟨S5x4000000, .f32⟩
  | .hbm, ⟨7, _⟩ => ⟨S5x4000000, .f32⟩
  | .hbm, ⟨8, _⟩ => ⟨S4000000x5, .f32⟩
  | .local _ .vmem, ⟨0, _⟩ => ⟨S2x32000, .i32⟩
  | .local _ .vmem, ⟨1, _⟩ => ⟨S2x32000, .i32⟩
  | .local _ .vmem, ⟨2, _⟩ => ⟨S25x32000, .f32⟩
  | .local _ .vmem, ⟨3, _⟩ => ⟨S25x32000, .f32⟩
  | .local _ .vmem, ⟨4, _⟩ => ⟨S5x32000, .f32⟩
  | .local _ .vmem, ⟨5, _⟩ => ⟨S5x32000, .f32⟩
  | .local _ .vmem, ⟨6, _⟩ => ⟨S5x32000, .f32⟩
  | .local _ .vmem, ⟨7, _⟩ => ⟨S5x32000, .f32⟩
  | _, _ => ⟨S4000000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4000000x2_S2x4000000_1_0 : S4000000x2.Transposes [1, 0] S2x4000000
  shapeCasts_S4000000x5x5_S4000000x25 : S4000000x5x5.ShapeCasts S4000000x25
  transposes_S4000000x25_S25x4000000_1_0 : S4000000x25.Transposes [1, 0] S25x4000000
  transposes_S4000000x5_S5x4000000_1_0 : S4000000x5.Transposes [1, 0] S5x4000000
  inb_S2x32000_S1x32000_0_0 : ∀ a, (![0, 0] : Fin 2 → Nat) a + S1x32000.size a ≤ S2x32000.size a
  h_S1x32000 : 0 < S1x32000.numel
  shapeCasts_S1x32000_S32000 : S1x32000.ShapeCasts S32000
  inb_S2x32000_S1x32000_1_0 : ∀ a, (![1, 0] : Fin 2 → Nat) a + S1x32000.size a ≤ S2x32000.size a
  inb_S5x32000_S1x32000_1_0 : ∀ a, (![1, 0] : Fin 2 → Nat) a + S1x32000.size a ≤ S5x32000.size a
  inb_S5x32000_S1x32000_2_0 : ∀ a, (![2, 0] : Fin 2 → Nat) a + S1x32000.size a ≤ S5x32000.size a
  inb_S5x32000_S1x32000_3_0 : ∀ a, (![3, 0] : Fin 2 → Nat) a + S1x32000.size a ≤ S5x32000.size a
  inb_S5x32000_S1x32000_4_0 : ∀ a, (![4, 0] : Fin 2 → Nat) a + S1x32000.size a ≤ S5x32000.size a
  inb_S25x32000_S1x32000_1_0 : ∀ a, (![1, 0] : Fin 2 → Nat) a + S1x32000.size a ≤ S25x32000.size a
  inb_S25x32000_S1x32000_2_0 : ∀ a, (![2, 0] : Fin 2 → Nat) a + S1x32000.size a ≤ S25x32000.size a
  inb_S25x32000_S1x32000_3_0 : ∀ a, (![3, 0] : Fin 2 → Nat) a + S1x32000.size a ≤ S25x32000.size a
  inb_S25x32000_S1x32000_4_0 : ∀ a, (![4, 0] : Fin 2 → Nat) a + S1x32000.size a ≤ S25x32000.size a
  inb_S25x32000_S1x32000_6_0 : ∀ a, (![6, 0] : Fin 2 → Nat) a + S1x32000.size a ≤ S25x32000.size a
  inb_S25x32000_S1x32000_7_0 : ∀ a, (![7, 0] : Fin 2 → Nat) a + S1x32000.size a ≤ S25x32000.size a
  inb_S25x32000_S1x32000_8_0 : ∀ a, (![8, 0] : Fin 2 → Nat) a + S1x32000.size a ≤ S25x32000.size a
  inb_S25x32000_S1x32000_9_0 : ∀ a, (![9, 0] : Fin 2 → Nat) a + S1x32000.size a ≤ S25x32000.size a
  inb_S25x32000_S1x32000_11_0 : ∀ a, (![11, 0] : Fin 2 → Nat) a + S1x32000.size a ≤ S25x32000.size a
  inb_S25x32000_S1x32000_12_0 : ∀ a, (![12, 0] : Fin 2 → Nat) a + S1x32000.size a ≤ S25x32000.size a
  inb_S25x32000_S1x32000_13_0 : ∀ a, (![13, 0] : Fin 2 → Nat) a + S1x32000.size a ≤ S25x32000.size a
  inb_S25x32000_S1x32000_14_0 : ∀ a, (![14, 0] : Fin 2 → Nat) a + S1x32000.size a ≤ S25x32000.size a
  inb_S25x32000_S1x32000_16_0 : ∀ a, (![16, 0] : Fin 2 → Nat) a + S1x32000.size a ≤ S25x32000.size a
  inb_S25x32000_S1x32000_17_0 : ∀ a, (![17, 0] : Fin 2 → Nat) a + S1x32000.size a ≤ S25x32000.size a
  inb_S25x32000_S1x32000_18_0 : ∀ a, (![18, 0] : Fin 2 → Nat) a + S1x32000.size a ≤ S25x32000.size a
  inb_S25x32000_S1x32000_19_0 : ∀ a, (![19, 0] : Fin 2 → Nat) a + S1x32000.size a ≤ S25x32000.size a
  inb_S25x32000_S1x32000_21_0 : ∀ a, (![21, 0] : Fin 2 → Nat) a + S1x32000.size a ≤ S25x32000.size a
  inb_S25x32000_S1x32000_22_0 : ∀ a, (![22, 0] : Fin 2 → Nat) a + S1x32000.size a ≤ S25x32000.size a
  inb_S25x32000_S1x32000_23_0 : ∀ a, (![23, 0] : Fin 2 → Nat) a + S1x32000.size a ≤ S25x32000.size a
  inb_S25x32000_S1x32000_24_0 : ∀ a, (![24, 0] : Fin 2 → Nat) a + S1x32000.size a ≤ S25x32000.size a
  shapeCasts_S32000_S1x32000 : S32000.ShapeCasts S1x32000
  concatenates_S1x32000_S1x32000_S1x32000_S1x32000_S1x32000_S5x32000_d0 : Shape.Concatenates [S1x32000, S1x32000, S1x32000, S1x32000, S1x32000] S5x32000 0
  inb_S5x32000_S5x32000_0_0 : ∀ a, (![0, 0] : Fin 2 → Nat) a + S5x32000.size a ≤ S5x32000.size a
  h_S5x32000 : 0 < S5x32000.numel
  transposes_S5x4000000_S4000000x5_1_0 : S5x4000000.Transposes [1, 0] S4000000x5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32000.size a ≤ S2x4000000.size a
  hwx0_0 : ∀ i : grid0.Coords, EltTy.bits .i32 = 32 ∨ (Rect.block (s := S2x4000000) S2x32000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25x32000.size a ≤ S25x4000000.size a
  hwx0_1 : ∀ i : grid0.Coords, EltTy.bits .f32 = 32 ∨ (Rect.block (s := S25x4000000) S25x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x32000.size a ≤ S5x4000000.size a
  hwx0_2 : ∀ i : grid0.Coords, EltTy.bits .f32 = 32 ∨ (Rect.block (s := S5x4000000) S5x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x32000.size a ≤ S5x4000000.size a
  hwx0_3 : ∀ i : grid0.Coords, EltTy.bits .f32 = 32 ∨ (Rect.block (s := S5x4000000) S5x32000.size (cc0_transform_3 i) (hinb0_3 i)).WholeWords (EltTy.packing .f32)

variable [Facts₀]

abbrev win0_0 : Pipeline.Window sig grid0 :=
  Pipeline.Window.ofSpec (Memref.whole main_v0) S2x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S25x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5x32000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5x32000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4000000x2 : Shape := ⟨2, ![4000000, 2]⟩
abbrev S4000000x5x5 : Shape := ⟨3, ![4000000, 5, 5]⟩
abbrev S4000000x5 : Shape := ⟨2, ![4000000, 5]⟩
abbrev S4000000x5x1 : Shape := ⟨3, ![4000000, 5, 1]⟩
abbrev S_ : Shape := ⟨0, ![]⟩
abbrev S4000000x1 : Shape := ⟨2, ![4000000, 1]⟩
abbrev S4000000x5x4 : Shape := ⟨3, ![4000000, 5, 4]⟩
abbrev S4000000x1x1 : Shape := ⟨3, ![4000000, 1, 1]⟩
abbrev S4000000x1x4 : Shape := ⟨3, ![4000000, 1, 4]⟩
abbrev S4000000x4 : Shape := ⟨2, ![4000000, 4]⟩
abbrev S4000000 : Shape := ⟨1, ![4000000]⟩
abbrev S4000000x5x2 : Shape := ⟨3, ![4000000, 5, 2]⟩
abbrev S4000000x1x2 : Shape := ⟨3, ![4000000, 1, 2]⟩

abbrev nBuf : Space → Nat
  | .hbm => 167
  | .vmem => 0
  | .smem => 0
  | _ => 0

abbrev hbmTy0_0 (i : Nat) : BufTy := match i % 128 with
  | 0 => ⟨S4000000x2, .i32⟩
  | 1 => ⟨S4000000x5x5, .f32⟩
  | 2 => ⟨S4000000x5, .f32⟩
  | 3 => ⟨S4000000x5x1, .f32⟩
  | 4 => ⟨S4000000x5, .f32⟩
  | 5 => ⟨S4000000x5x1, .f32⟩
  | 6 => ⟨S4000000x5, .f32⟩
  | 7 => ⟨S4000000x5x1, .f32⟩
  | 8 => ⟨S4000000x5, .f32⟩
  | 9 => ⟨S4000000x5x1, .f32⟩
  | 10 => ⟨S4000000x5, .f32⟩
  | 11 => ⟨S_, .f32⟩
  | 12 => ⟨S4000000x5, .f32⟩
  | 13 => ⟨S4000000x5, .f32⟩
  | 14 => ⟨S_, .f32⟩
  | 15 => ⟨S4000000x5, .f32⟩
  | 16 => ⟨S4000000x5, .f32⟩
  | 17 => ⟨S4000000x1, .i32⟩
  | 18 => ⟨S4000000x1, .f32⟩
  | 19 => ⟨S_, .f32⟩
  | 20 => ⟨S4000000x1, .f32⟩
  | 21 => ⟨S4000000x1, .f32⟩
  | 22 => ⟨S_, .f32⟩
  | 23 => ⟨S4000000x1, .f32⟩
  | 24 => ⟨S4000000x1, .f32⟩
  | 25 => ⟨S4000000x1, .i32⟩
  | 26 => ⟨S4000000x1, .f32⟩
  | 27 => ⟨S_, .f32⟩
  | 28 => ⟨S4000000x1, .f32⟩
  | 29 => ⟨S4000000x1, .f32⟩
  | 30 => ⟨S_, .f32⟩
  | 31 => ⟨S4000000x1, .f32⟩
  | 32 => ⟨S4000000x1, .f32⟩
  | 33 => ⟨S_, .f32⟩
  | 34 => ⟨S4000000x5, .f32⟩
  | 35 => ⟨S4000000x5, .f32⟩
  | 36 => ⟨S4000000x5, .f32⟩
  | 37 => ⟨S4000000x5, .f32⟩
  | 38 => ⟨S_, .f32⟩
  | 39 => ⟨S4000000x5, .f32⟩
  | 40 => ⟨S4000000x5, .f32⟩
  | 41 => ⟨S4000000x5, .f32⟩
  | 42 => ⟨S4000000x5, .f32⟩
  | 43 => ⟨S_, .f32⟩
  | 44 => ⟨S4000000x5, .f32⟩
  | 45 => ⟨S4000000x5, .f32⟩
  | 46 => ⟨S4000000x5, .f32⟩
  | 47 => ⟨S_, .f32⟩
  | 48 => ⟨S4000000x5, .f32⟩
  | 49 => ⟨S4000000x5, .f32⟩
  | 50 => ⟨S4000000x5, .f32⟩
  | 51 => ⟨S_, .f32⟩
  | 52 => ⟨S4000000x5, .f32⟩
  | 53 => ⟨S4000000x5, .f32⟩
  | 54 => ⟨S4000000x5, .f32⟩
  | 55 => ⟨S_, .f32⟩
  | 56 => ⟨S4000000x5, .f32⟩
  | 57 => ⟨S4000000x5, .f32⟩
  | 58 => ⟨S4000000x5, .f32⟩
  | 59 => ⟨S4000000x5x1, .f32⟩
  | 60 => ⟨S4000000x5x1, .f32⟩
  | 61 => ⟨S4000000x5x1, .f32⟩
  | 62 => ⟨S4000000x5x1, .f32⟩
  | 63 => ⟨S4000000x5x4, .f32⟩
  | 64 => ⟨S4000000x1, .f32⟩
  | 65 => ⟨S4000000x1, .f32⟩
  | 66 => ⟨S4000000x1, .f32⟩
  | 67 => ⟨S4000000x1, .f32⟩
  | 68 => ⟨S_, .f32⟩
  | 69 => ⟨S4000000x1, .f32⟩
  | 70 => ⟨S4000000x1, .f32⟩
  | 71 => ⟨S_, .f32⟩
  | 72 => ⟨S4000000x1, .f32⟩
  | 73 => ⟨S4000000x1, .f32⟩
  | 74 => ⟨S4000000x1, .i32⟩
  | 75 => ⟨S4000000x1, .f32⟩
  | 76 => ⟨S_, .f32⟩
  | 77 => ⟨S4000000x1, .f32⟩
  | 78 => ⟨S4000000x1, .f32⟩
  | 79 => ⟨S_, .f32⟩
  | 80 => ⟨S4000000x1, .f32⟩
  | 81 => ⟨S4000000x1, .f32⟩
  | 82 => ⟨S4000000x1, .i32⟩
  | 83 => ⟨S4000000x1, .f32⟩
  | 84 => ⟨S_, .f32⟩
  | 85 => ⟨S4000000x1, .f32⟩
  | 86 => ⟨S4000000x1, .f32⟩
  | 87 => ⟨S_, .f32⟩
  | 88 => ⟨S4000000x1, .f32⟩
  | 89 => ⟨S4000000x1, .f32⟩
  | 90 => ⟨S_, .f32⟩
  | 91 => ⟨S4000000x1, .f32⟩
  | 92 => ⟨S4000000x1, .f32⟩
  | 93 => ⟨S4000000x1, .f32⟩
  | 94 => ⟨S_, .f32⟩
  | 95 => ⟨S4000000x1, .f32⟩
  | 96 => ⟨S4000000x1, .f32⟩
  | 97 => ⟨S4000000x1, .f32⟩
  | 98 => ⟨S_, .f32⟩
  | 99 => ⟨S4000000x1, .f32⟩
  | 100 => ⟨S4000000x1, .f32⟩
  | 101 => ⟨S4000000x1, .f32⟩
  | 102 => ⟨S_, .f32⟩
  | 103 => ⟨S4000000x1, .f32⟩
  | 104 => ⟨S4000000x1, .f32⟩
  | 105 => ⟨S4000000x1, .f32⟩
  | 106 => ⟨S_, .f32⟩
  | 107 => ⟨S4000000x1, .f32⟩
  | 108 => ⟨S4000000x1, .f32⟩
  | 109 => ⟨S4000000x1, .f32⟩
  | 110 => ⟨S_, .f32⟩
  | 111 => ⟨S4000000x1, .f32⟩
  | 112 => ⟨S4000000x1, .f32⟩
  | 113 => ⟨S4000000x1, .f32⟩
  | 114 => ⟨S4000000x1x1, .f32⟩
  | 115 => ⟨S4000000x1x1, .f32⟩
  | 116 => ⟨S4000000x1x1, .f32⟩
  | 117 => ⟨S4000000x1x1, .f32⟩
  | 118 => ⟨S4000000x1x4, .f32⟩
  | 119 => ⟨S4000000x4, .f32⟩
  | 120 => ⟨S4000000x5x1, .f32⟩
  | 121 => ⟨S4000000x5, .f32⟩
  | 122 => ⟨S4000000x5x1, .f32⟩
  | 123 => ⟨S4000000x5, .f32⟩
  | 124 => ⟨S4000000x5, .f32⟩
  | 125 => ⟨S4000000x5x1, .f32⟩
  | 126 => ⟨S4000000x5, .f32⟩
  | 127 => ⟨S4000000x5x1, .f32⟩
  | _ => ⟨S4000000x2, .i32⟩

abbrev hbmTy0_1 (i : Nat) : BufTy := match i % 128 with
  | 0 => ⟨S4000000x5, .f32⟩
  | 1 => ⟨S4000000x5, .f32⟩
  | 2 => ⟨S4000000x5, .f32⟩
  | 3 => ⟨S4000000x1, .f32⟩
  | 4 => ⟨S4000000, .f32⟩
  | 5 => ⟨S4000000x1, .f32⟩
  | 6 => ⟨S4000000, .f32⟩
  | 7 => ⟨S4000000, .f32⟩
  | 8 => ⟨S4000000x1, .f32⟩
  | 9 => ⟨S4000000, .f32⟩
  | 10 => ⟨S4000000x1, .f32⟩
  | 11 => ⟨S4000000, .f32⟩
  | 12 => ⟨S4000000, .f32⟩
  | 13 => ⟨S4000000, .f32⟩
  | 14 => ⟨S4000000x5x2, .f32⟩
  | 15 => ⟨S4000000x2, .f32⟩
  | 16 => ⟨S4000000x1x2, .f32⟩
  | 17 => ⟨S4000000x5x2, .f32⟩
  | 18 => ⟨S4000000x5x2, .f32⟩
  | 19 => ⟨S4000000x5x2, .f32⟩
  | 20 => ⟨S4000000x2, .f32⟩
  | 21 => ⟨S4000000x1x2, .f32⟩
  | 22 => ⟨S4000000x5x2, .f32⟩
  | 23 => ⟨S4000000x5x2, .f32⟩
  | 24 => ⟨S4000000x5x2, .f32⟩
  | 25 => ⟨S_, .f32⟩
  | 26 => ⟨S_, .f32⟩
  | 27 => ⟨S4000000x5x2, .f32⟩
  | 28 => ⟨S4000000x5x2, .f32⟩
  | 29 => ⟨S4000000x5x1, .f32⟩
  | 30 => ⟨S4000000x5, .f32⟩
  | 31 => ⟨S4000000x5x1, .f32⟩
  | 32 => ⟨S4000000x5, .f32⟩
  | 33 => ⟨S4000000x5, .f32⟩
  | 34 => ⟨S4000000x1, .f32⟩
  | 35 => ⟨S4000000x5, .f32⟩
  | 36 => ⟨S4000000x5, .f32⟩
  | 37 => ⟨S4000000x5, .f32⟩
  | 38 => ⟨S4000000x5, .f32⟩
  | _ => ⟨S4000000x2, .i32⟩

abbrev hbmTy (i : Nat) : BufTy := match i / 128 with
  | 0 => hbmTy0_0 i
  | 1 => hbmTy0_1 i
  | _ => ⟨S4000000x2, .i32⟩

abbrev bufTy : (tb : Table) → Fin (tcTables nBuf tb) → BufTy
  | .hbm, ⟨i, _⟩ => hbmTy i
  | _, _ => ⟨S4000000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_18 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_19 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_21 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_22 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_23 : Ref sig .tc := ⟨.hbm, 153, rfl⟩
abbrev main_call0_v0 : Ref sig .tc := ⟨.hbm, 154, rfl⟩
abbrev main_call0_v1 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩

abbrev nD : Nat := 1
abbrev τ : Topo := Topo.v7x

variable {F : FTy → Type} [FloatOps F]

class Facts₀ : Prop where
  slices_S4000000x5x5_S4000000x5x1_0_0_1 : S4000000x5x5.Slices ![0, 0, 1] S4000000x5x1
  shapeCasts_S4000000x5x1_S4000000x5 : S4000000x5x1.ShapeCasts S4000000x5
  slices_S4000000x5x5_S4000000x5x1_0_0_2 : S4000000x5x5.Slices ![0, 0, 2] S4000000x5x1
  slices_S4000000x5x5_S4000000x5x1_0_0_3 : S4000000x5x5.Slices ![0, 0, 3] S4000000x5x1
  slices_S4000000x5x5_S4000000x5x1_0_0_4 : S4000000x5x5.Slices ![0, 0, 4] S4000000x5x1
  bcast_S_S4000000x5 : S_.BroadcastsInDim S4000000x5 (![] : Fin 0 → Fin S4000000x5.rank)
  slices_S4000000x2_S4000000x1_0_0 : S4000000x2.Slices ![0, 0] S4000000x1
  bcast_S_S4000000x1 : S_.BroadcastsInDim S4000000x1 (![] : Fin 0 → Fin S4000000x1.rank)
  slices_S4000000x2_S4000000x1_0_1 : S4000000x2.Slices ![0, 1] S4000000x1
  bcast_S4000000x1_S4000000x5_0_1 : S4000000x1.BroadcastsInDim S4000000x5 (![0, 1] : Fin 2 → Fin S4000000x5.rank)
  bcast_S4000000x5_S4000000x5x1_0_1 : S4000000x5.BroadcastsInDim S4000000x5x1 (![0, 1] : Fin 2 → Fin S4000000x5x1.rank)
  concatenates_S4000000x5x1_S4000000x5x1_S4000000x5x1_S4000000x5x1_S4000000x5x4_d2 : Shape.Concatenates [S4000000x5x1, S4000000x5x1, S4000000x5x1, S4000000x5x1] S4000000x5x4 2
  slices_S4000000x5_S4000000x1_0_1 : S4000000x5.Slices ![0, 1] S4000000x1
  slices_S4000000x5_S4000000x1_0_2 : S4000000x5.Slices ![0, 2] S4000000x1
  slices_S4000000x5_S4000000x1_0_3 : S4000000x5.Slices ![0, 3] S4000000x1
  slices_S4000000x5_S4000000x1_0_4 : S4000000x5.Slices ![0, 4] S4000000x1
  bcast_S4000000x1_S4000000x1x1_0_1 : S4000000x1.BroadcastsInDim S4000000x1x1 (![0, 1] : Fin 2 → Fin S4000000x1x1.rank)
  concatenates_S4000000x1x1_S4000000x1x1_S4000000x1x1_S4000000x1x1_S4000000x1x4_d2 : Shape.Concatenates [S4000000x1x1, S4000000x1x1, S4000000x1x1, S4000000x1x1] S4000000x1x4 2
  shapeCasts_S4000000x1x4_S4000000x4 : S4000000x1x4.ShapeCasts S4000000x4
  slices_S4000000x5x4_S4000000x5x1_0_0_2 : S4000000x5x4.Slices ![0, 0, 2] S4000000x5x1
  slices_S4000000x5x4_S4000000x5x1_0_0_0 : S4000000x5x4.Slices ![0, 0, 0] S4000000x5x1
  slices_S4000000x5x4_S4000000x5x1_0_0_3 : S4000000x5x4.Slices ![0, 0, 3] S4000000x5x1
  slices_S4000000x5x4_S4000000x5x1_0_0_1 : S4000000x5x4.Slices ![0, 0, 1] S4000000x5x1
  slices_S4000000x4_S4000000x1_0_2 : S4000000x4.Slices ![0, 2] S4000000x1
  shapeCasts_S4000000x1_S4000000 : S4000000x1.ShapeCasts S4000000
  slices_S4000000x4_S4000000x1_0_0 : S4000000x4.Slices ![0, 0] S4000000x1
  slices_S4000000x4_S4000000x1_0_3 : S4000000x4.Slices ![0, 3] S4000000x1
  slices_S4000000x4_S4000000x1_0_1 : S4000000x4.Slices ![0, 1] S4000000x1
  slices_S4000000x5x4_S4000000x5x2_0_0_0 : S4000000x5x4.Slices ![0, 0, 0] S4000000x5x2
  slices_S4000000x4_S4000000x2_0_0 : S4000000x4.Slices ![0, 0] S4000000x2
  bcast_S4000000x2_S4000000x1x2_0_2 : S4000000x2.BroadcastsInDim S4000000x1x2 (![0, 2] : Fin 2 → Fin S4000000x1x2.rank)
  bcast_S4000000x1x2_S4000000x5x2_0_1_2 : S4000000x1x2.BroadcastsInDim S4000000x5x2 (![0, 1, 2] : Fin 3 → Fin S4000000x5x2.rank)
  slices_S4000000x5x4_S4000000x5x2_0_0_2 : S4000000x5x4.Slices ![0, 0, 2] S4000000x5x2
  slices_S4000000x4_S4000000x2_0_2 : S4000000x4.Slices ![0, 2] S4000000x2
  bcast_S_S4000000x5x2 : S_.BroadcastsInDim S4000000x5x2 (![] : Fin 0 → Fin S4000000x5x2.rank)
  slices_S4000000x5x2_S4000000x5x1_0_0_0 : S4000000x5x2.Slices ![0, 0, 0] S4000000x5x1
  slices_S4000000x5x2_S4000000x5x1_0_0_1 : S4000000x5x2.Slices ![0, 0, 1] S4000000x5x1
  bcast_S4000000_S4000000x1_0 : S4000000.BroadcastsInDim S4000000x1 (![0] : Fin 1 → Fin S4000000x1.rank)

variable [Facts₀]

class Facts : Prop extends Facts₀ where

variable [Facts]
-- ==== Proof.BoxIou.lean ====
/-
  The intersection over union of a predicted box with its ground-truth box, as one function of the
  numbers that describe the two boxes, on the extended reals.

  A box lives in a grid cell `(i, j)`. The cell's centre on an axis is `k · 20 + 10` (the interval is 20).
  A box is given by offsets `dx, dy` and sizes `h, w` in units of the interval: its centre is
  `(ci + dx · 20, cj + dy · 20)` and its corners lie half a size to either side,
  `x₁ = yc − half (w · 20)`, `y₁ = xc − half (h · 20)`, `x₂ = yc + half (w · 20)`, `y₂ = xc + half (h · 20)`.
  The intersection of two boxes has sides `max 0 (min x₂ x₂' − max x₁ x₁')` and the same in `y`; the
  union's area is the two areas' sum less the intersection's; the result is their quotient.

  "Half" is spelt in two ways: the product with the float `0.5`, or the quotient by the float `2`. On the
  extended reals a quotient by a real that is not zero IS the product with its reciprocal, at the
  infinities too, so the two spellings are one function (`halfQuot_eq_halfProd`) and so are the two
  readings of the whole formula (`boxes_quot_eq_prod`).
-/
import Idealize.ShloMosaic.PureOps.Ideal
import Idealize.ShloMosaic.PureOps.Ideal.Laws
import Idealize.ShloMosaic.Lib.ValueIdx
import Idealize.ShloMosaic.Lib.IdealHost

noncomputable section

namespace Cert.BoxIou

open Idealize.ShloMosaic Idealize.ShloMosaic.ValueIdx

/-- The grid interval, the float 20. -/
abbrev interval : EReal := Ideal.ofBits .f32 0x41A00000#32
/-- Half the interval, the float 10. -/
abbrev halfInterval : EReal := Ideal.ofBits .f32 0x41200000#32
/-- The float one half. -/
abbrev oneHalf : EReal := Ideal.ofBits .f32 0x3F000000#32
/-- The float two. -/
abbrev twoF : EReal := Ideal.ofBits .f32 0x40000000#32
/-- The float zero. -/
abbrev zeroF : EReal := Ideal.ofBits .f32 0x00000000#32

/-- The centre of cell number `k` on one axis: `k · 20 + 10`, the cell number read as a signed integer. -/
def centre (k : BitVec 32) : EReal := FloatOps.sitofp (F := Ideal) .f32 k * interval + halfInterval

/-- Half as the product with one half. -/
def halfProd (x : EReal) : EReal := x * oneHalf
/-- Half as the quotient by two. -/
def halfQuot (x : EReal) : EReal := Ideal.div x twoF

/-- The float two is the real 2. -/
theorem twoF_eq : twoF = ((2 : ℝ) : EReal) := by
  simp [twoF, Ideal.ofBits, Ideal.ieee, -EReal.coe_mul]; norm_num
/-- The float one half is the real 1/2. -/
theorem oneHalf_eq : oneHalf = (((1 : ℝ) / 2 : ℝ) : EReal) := by
  simp [oneHalf, Ideal.ofBits, Ideal.ieee, -EReal.coe_mul]; norm_num

/-- The quotient by two is the product with one half, on every extended real. -/
theorem halfQuot_eq_halfProd : halfQuot = halfProd := by
  funext x
  unfold halfQuot halfProd
  rw [twoF_eq, oneHalf_eq]
  exact Ideal.div_coe (by norm_num) x

/-- The low corner on one axis: the centre `c + d · 20` less half the size `s · 20`. -/
def lo (half : EReal → EReal) (c d s : EReal) : EReal := (c + d * interval) - half (s * interval)
/-- The high corner on one axis: the centre `c + d · 20` plus half the size `s · 20`. -/
def hi (half : EReal → EReal) (c d s : EReal) : EReal := (c + d * interval) + half (s * interval)

/-- Intersection over union of the predicted box `(dxp, dyp, hp, wp)` and the ground-truth box
    `(dxg, dyg, hg, wg)` of the cell whose centres are `ci, cj`. The `x` corners come from the `j` centre,
    the `dy` offset and the width; the `y` corners from the `i` centre, the `dx` offset and the height. -/
def boxes (half : EReal → EReal) (ci cj dxp dyp hp wp dxg dyg hg wg : EReal) : EReal :=
  let x1p := lo half cj dyp wp
  let y1p := lo half ci dxp hp
  let x2p := hi half cj dyp wp
  let y2p := hi half ci dxp hp
  let x1g := lo half cj dyg wg
  let y1g := lo half ci dxg hg
  let x2g := hi half cj dyg wg
  let y2g := hi half ci dxg hg
  let areaP := (x2p - x1p) * (y2p - y1p)
  let areaG := (x2g - x1g) * (y2g - y1g)
  let inter := max zeroF (min x2p x2g - max x1p x1g) * max zeroF (min y2p y2g - max y1p y1g)
  Ideal.div inter ((areaP + areaG) - inter)

/-- A box's four corners in the order `x₁, y₁, x₂, y₂`. -/
def corner (half : EReal → EReal) (ci cj dx dy h w : EReal) : Fin 4 → EReal
  | 0 => lo half cj dy w
  | 1 => lo half ci dx h
  | 2 => hi half cj dy w
  | 3 => hi half ci dx h

/-- Row `5 a + k` of 25: entry `k` of anchor `a` when the five entries of the five anchors are laid in one row. -/
abbrev prow (a k : Fin 5) : Fin 25 := ⟨5 * a.val + k.val, by omega⟩

/-- The two spellings of "half" give one formula. -/
theorem boxes_quot_eq_prod : boxes halfQuot = boxes halfProd := by rw [halfQuot_eq_halfProd]

/-- The whole result: entry `(n, a)` is the intersection over union of box `n`'s anchor `a` (entries 1 to 4 of
    `out n a`) with box `n`'s ground truth (entries 1 to 4 of `tgt n`), in the cell `cell n`. -/
def result (half : EReal → EReal) (cell : (⟨2, ![4000000, 2]⟩ : Shape).Idx → BitVec 32)
    (out : (⟨3, ![4000000, 5, 5]⟩ : Shape).Idx → EReal) (tgt : (⟨2, ![4000000, 5]⟩ : Shape).Idx → EReal) :
    (⟨2, ![4000000, 5]⟩ : Shape).Idx → EReal := fun i =>
  boxes half (centre (cell (ix2 (i 0) (0 : Fin 2)))) (centre (cell (ix2 (i 0) (1 : Fin 2))))
    (out (ix3 (i 0) (i 1) (1 : Fin 5))) (out (ix3 (i 0) (i 1) (2 : Fin 5))) (out (ix3 (i 0) (i 1) (3 : Fin 5))) (out (ix3 (i 0) (i 1) (4 : Fin 5)))
    (tgt (ix2 (i 0) (1 : Fin 5))) (tgt (ix2 (i 0) (2 : Fin 5))) (tgt (ix2 (i 0) (3 : Fin 5))) (tgt (ix2 (i 0) (4 : Fin 5)))

theorem result_apply (half : EReal → EReal) (cell : (⟨2, ![4000000, 2]⟩ : Shape).Idx → BitVec 32)
    (out : (⟨3, ![4000000, 5, 5]⟩ : Shape).Idx → EReal) (tgt : (⟨2, ![4000000, 5]⟩ : Shape).Idx → EReal)
    (n : Fin 4000000) (a : Fin 5) :
    result half cell out tgt (ix2 n a) =
      boxes half (centre (cell (ix2 n (0 : Fin 2)))) (centre (cell (ix2 n (1 : Fin 2))))
        (out (ix3 n a (1 : Fin 5))) (out (ix3 n a (2 : Fin 5))) (out (ix3 n a (3 : Fin 5))) (out (ix3 n a (4 : Fin 5)))
        (tgt (ix2 n (1 : Fin 5))) (tgt (ix2 n (2 : Fin 5))) (tgt (ix2 n (3 : Fin 5))) (tgt (ix2 n (4 : Fin 5))) := rfl

theorem result_quot_eq_prod : result halfQuot = result halfProd := by rw [halfQuot_eq_halfProd]

end Cert.BoxIou

end
-- ==== Proof.KerTile.lean ====
/-
  One grid point of the kernel: the block it stores is, entry by entry, the intersection over union of
  the boxes in its three input blocks. Row `a` of the 5 × 32000 output block is anchor `a`; lane `j` is box `j`
  of the block. The cell numbers are rows 0 and 1 of the first block, anchor `a`'s entries `k` are row
  `5 a + k` of the second, the ground truth's entries are rows of the third.

  The block is one store of five stacked rows. A row of the stack at a lane is that anchor's quotient at the
  lane; the quotient is built from single rows of the input blocks by pointwise operations only, in the order and
  grouping of `boxes halfProd`, so at a lane it IS `boxes halfProd` of the rows' entries at that lane; and a
  loaded row `k` of a block, at lane `j`, is the block's entry `(k, j)`.
-/
import proofs.«123306_j31336081391713_1_alg».proof.Proof.Gen.KernelIdeal.Frame
import proofs.«123306_j31336081391713_1_alg».proof.Proof.BoxIou
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx Cert.BoxIou

/-! ## Layout: a loaded row, a row of five stacked rows -/

/-- A load of row `k` of an `n × m` block, read at lane `j`, is the block at `(k, j)`. -/
theorem ld_row {Val : EltTy → Type} {e : EltTy} {n m : Nat} (X : (⟨2, ![n, m]⟩ : Shape).Idx → Val e) (k : Nat)
    (inb : ∀ a, (![k, 0] : Fin 2 → Nat) a + (⟨2, ![1, m]⟩ : Shape).size a ≤ (⟨2, ![n, m]⟩ : Shape).size a)
    (hk : k < n) (j : Fin m) :
    View.ld X (Rect.unit (s := ⟨2, ![n, m]⟩) ![k, 0] (⟨2, ![1, m]⟩ : Shape).size inb) (ix2 (0 : Fin 1) j)
      = X (ix2 (⟨k, hk⟩ : Fin n) j) := by
  show X _ = X _
  congr 1
  funext a
  match a with
  | ⟨0, _⟩ => exact Fin.ext (by show k + 1 * 0 = k; omega)
  | ⟨1, _⟩ => exact Fin.ext (by show 0 + 1 * j.val = j.val; omega)

/-- Five single-row pieces stacked along the rows: row `k` of the stack at lane `j` is piece `k` at lane `j`. -/
theorem cat5_row {α : Type} {m : Nat} (p0 p1 p2 p3 p4 : (⟨2, ![1, m]⟩ : Shape).Idx → α)
    (h : Shape.Concatenates [(⟨2, ![1, m]⟩ : Shape), ⟨2, ![1, m]⟩, ⟨2, ![1, m]⟩, ⟨2, ![1, m]⟩, ⟨2, ![1, m]⟩] ⟨2, ![5, m]⟩ 0)
    (k : Nat) (hk : k < 5) (pk : (⟨2, ![1, m]⟩ : Shape).Idx → α)
    (hpk : ([⟨⟨2, ![1, m]⟩, p0⟩, ⟨⟨2, ![1, m]⟩, p1⟩, ⟨⟨2, ![1, m]⟩, p2⟩, ⟨⟨2, ![1, m]⟩, p3⟩, ⟨⟨2, ![1, m]⟩, p4⟩] :
        List ((s : Shape) × (s.Idx → α)))[k]'(by simpa using hk) = ⟨⟨2, ![1, m]⟩, pk⟩)
    (j : Fin m) :
    concatenate (⟨2, ![5, m]⟩ : Shape) 0 [⟨⟨2, ![1, m]⟩, p0⟩, ⟨⟨2, ![1, m]⟩, p1⟩, ⟨⟨2, ![1, m]⟩, p2⟩, ⟨⟨2, ![1, m]⟩, p3⟩, ⟨⟨2, ![1, m]⟩, p4⟩] h
        (ix2 (⟨k, hk⟩ : Fin 5) j) = pk (ix2 (0 : Fin 1) j) := by
  refine concatenate_apply_piece (t := ⟨2, ![5, m]⟩) (0 : Fin 2)
    [⟨⟨2, ![1, m]⟩, p0⟩, ⟨⟨2, ![1, m]⟩, p1⟩, ⟨⟨2, ![1, m]⟩, p2⟩, ⟨⟨2, ![1, m]⟩, p3⟩, ⟨⟨2, ![1, m]⟩, p4⟩]
    h (ix2 (⟨k, hk⟩ : Fin 5) j) k (by simpa using hk) ⟨2, ![1, m]⟩ pk hpk rfl k ?_ (ix2 (0 : Fin 1) j) ?_ ?_
  · interval_cases k <;> rfl
  · intro b hb
    match b with
    | ⟨0, _⟩ => exact absurd rfl hb
    | ⟨1, _⟩ => rfl
  · show k + 0 = k; omega

/-- A single-row block read as a vector, at lane `j`. -/
abbrev sc {α : Type} (v : S1x32000.Idx → α) (j : Fin 32000) : α :=
  shapeCast S32000 v shapeCasts_S1x32000_S32000 (ix1 j)

/-- Row `k` of an `n × 32000` block, loaded and read as a vector, at lane `j`, is the block's entry `(k, j)`. -/
theorem sc_ld {e : EltTy} {n : Nat} (X : (⟨2, ![n, 32000]⟩ : Shape).Idx → Elt Ideal e) (k : Nat)
    (inb : ∀ a, (![k, 0] : Fin 2 → Nat) a + S1x32000.size a ≤ (⟨2, ![n, 32000]⟩ : Shape).size a)
    (hk : k < n) (j : Fin 32000) :
    sc (View.ld X (Rect.unit (s := ⟨2, ![n, 32000]⟩) ![k, 0] S1x32000.size inb)) j = X (ix2 (⟨k, hk⟩ : Fin n) j) :=
  (shapeCast_1a_a_apply _ _ j).trans (ld_row X k inb hk j)

/-! ## The quotients at a lane -/

/-- Anchor 0's quotient at lane `j`, over the rows it reads: the intersection over union of the box
    `(dx, dy, h, w)` with the ground-truth box `(v14, v16, v18, v22)` in the cell `(v0, v3)`. Every operation is
    pointwise, in the order and grouping of `boxes`, so the two sides unfold to one term. -/
theorem anchor0_lane (v0 v3 : Vec Ideal S1x32000 .i32) (v14 v16 v18 v22 dx dy h w : Vec Ideal S1x32000 .f32)
    (j : Fin 32000) :
    (k0_pay24 (F := Ideal) (k0_pay8 v3 v16 v22) (k0_pay10 (k0_pay6 v0 v14) (k0_pay9 v18))
        (k0_pay11 (k0_pay5 v22) (k0_pay7 v3 v16)) (k0_pay12 (k0_pay4 v18) (k0_pay6 v0 v14))
        (k0_pay13 (k0_pay4 v18) (k0_pay5 v22) (k0_pay6 v0 v14) (k0_pay7 v3 v16) (k0_pay8 v3 v16 v22) (k0_pay9 v18))
        (k0_pay18 (k0_pay3 v3) dy w) (k0_pay19 (k0_pay2 v0) dx h) (k0_pay20 (k0_pay3 v3) dy w)
        (k0_pay21 (k0_pay2 v0) dx h) (k0_pay22 (k0_pay3 v3) dy w) (k0_pay23 (k0_pay2 v0) dx h)) (ix1 j)
      = boxes halfProd (centre (sc v0 j)) (centre (sc v3 j)) (sc dx j) (sc dy j) (sc h j) (sc w j)
          (sc v14 j) (sc v16 j) (sc v18 j) (sc v22 j) := rfl

/-- Anchor 1's quotient at lane `j`, over the rows it reads: the intersection over union of the box
    `(dx, dy, h, w)` with the ground-truth box `(v14, v16, v18, v22)` in the cell `(v0, v3)`. Every operation is
    pointwise, in the order and grouping of `boxes`, so the two sides unfold to one term. -/
theorem anchor1_lane (v0 v3 : Vec Ideal S1x32000 .i32) (v14 v16 v18 v22 dx dy h w : Vec Ideal S1x32000 .f32)
    (j : Fin 32000) :
    (k0_pay32 (F := Ideal) (k0_pay8 v3 v16 v22) (k0_pay10 (k0_pay6 v0 v14) (k0_pay9 v18))
        (k0_pay11 (k0_pay5 v22) (k0_pay7 v3 v16)) (k0_pay12 (k0_pay4 v18) (k0_pay6 v0 v14))
        (k0_pay13 (k0_pay4 v18) (k0_pay5 v22) (k0_pay6 v0 v14) (k0_pay7 v3 v16) (k0_pay8 v3 v16 v22) (k0_pay9 v18))
        (k0_pay25 h) (k0_pay27 (k0_pay2 v0) dx) (k0_pay29 (k0_pay3 v3) dy w) (k0_pay30 (k0_pay2 v0) dx h)
        (k0_pay31 (k0_pay3 v3) dy w) (Scalar.ofBits .f32 0x3F000000#32)) (ix1 j)
      = boxes halfProd (centre (sc v0 j)) (centre (sc v3 j)) (sc dx j) (sc dy j) (sc h j) (sc w j)
          (sc v14 j) (sc v16 j) (sc v18 j) (sc v22 j) := rfl

/-- Anchor 2's quotient at lane `j`, over the rows it reads: the intersection over union of the box
    `(dx, dy, h, w)` with the ground-truth box `(v14, v16, v18, v22)` in the cell `(v0, v3)`. Every operation is
    pointwise, in the order and grouping of `boxes`, so the two sides unfold to one term. -/
theorem anchor2_lane (v0 v3 : Vec Ideal S1x32000 .i32) (v14 v16 v18 v22 dx dy h w : Vec Ideal S1x32000 .f32)
    (j : Fin 32000) :
    (k0_pay39 (F := Ideal) (k0_pay8 v3 v16 v22) (k0_pay10 (k0_pay6 v0 v14) (k0_pay9 v18))
        (k0_pay11 (k0_pay5 v22) (k0_pay7 v3 v16)) (k0_pay12 (k0_pay4 v18) (k0_pay6 v0 v14))
        (k0_pay13 (k0_pay4 v18) (k0_pay5 v22) (k0_pay6 v0 v14) (k0_pay7 v3 v16) (k0_pay8 v3 v16 v22) (k0_pay9 v18))
        (k0_pay33 h) (k0_pay34 w) (k0_pay35 (k0_pay2 v0) dx) (k0_pay36 (k0_pay3 v3) dy)
        (k0_pay37 (k0_pay3 v3) dy w) (k0_pay38 (k0_pay2 v0) dx h)) (ix1 j)
      = boxes halfProd (centre (sc v0 j)) (centre (sc v3 j)) (sc dx j) (sc dy j) (sc h j) (sc w j)
          (sc v14 j) (sc v16 j) (sc v18 j) (sc v22 j) := rfl

/-- Anchor 3's quotient at lane `j`, over the rows it reads: the intersection over union of the box
    `(dx, dy, h, w)` with the ground-truth box `(v14, v16, v18, v22)` in the cell `(v0, v3)`. Every operation is
    pointwise, in the order and grouping of `boxes`, so the two sides unfold to one term. -/
theorem anchor3_lane (v0 v3 : Vec Ideal S1x32000 .i32) (v14 v16 v18 v22 dx dy h w : Vec Ideal S1x32000 .f32)
    (j : Fin 32000) :
    (k0_pay45 (F := Ideal) (k0_pay8 v3 v16 v22) (k0_pay10 (k0_pay6 v0 v14) (k0_pay9 v18))
        (k0_pay11 (k0_pay5 v22) (k0_pay7 v3 v16)) (k0_pay12 (k0_pay4 v18) (k0_pay6 v0 v14))
        (k0_pay13 (k0_pay4 v18) (k0_pay5 v22) (k0_pay6 v0 v14) (k0_pay7 v3 v16) (k0_pay8 v3 v16 v22) (k0_pay9 v18))
        (k0_pay40 h) (k0_pay41 w) (k0_pay42 (k0_pay2 v0) dx) (k0_pay43 (k0_pay3 v3) dy) (k0_pay44 w)) (ix1 j)
      = boxes halfProd (centre (sc v0 j)) (centre (sc v3 j)) (sc dx j) (sc dy j) (sc h j) (sc w j)
          (sc v14 j) (sc v16 j) (sc v18 j) (sc v22 j) := rfl

/-- The last anchor's quotient is computed with the stack: row 4 of the stored payload at lane `j`, over the rows
    it reads. The other four rows of the stack (`q0 … q3`) do not enter. -/
theorem anchor4_lane (v0 v3 : Vec Ideal S1x32000 .i32) (v14 v16 v18 v22 dx dy h w : Vec Ideal S1x32000 .f32)
    (q0 q1 q2 q3 : FVec Ideal S32000 .f32) (j : Fin 32000) :
    k0_pay1 (F := Ideal) (k0_pay3 v3) (k0_pay8 v3 v16 v22) (k0_pay10 (k0_pay6 v0 v14) (k0_pay9 v18))
        (k0_pay11 (k0_pay5 v22) (k0_pay7 v3 v16)) (k0_pay12 (k0_pay4 v18) (k0_pay6 v0 v14))
        (k0_pay13 (k0_pay4 v18) (k0_pay5 v22) (k0_pay6 v0 v14) (k0_pay7 v3 v16) (k0_pay8 v3 v16 v22) (k0_pay9 v18))
        q0 q1 q2 q3 (k0_pay46 dy) (k0_pay47 h) (k0_pay48 w) (k0_pay49 (k0_pay2 v0) dx) k0_pay50 (ix2 (⟨4, by omega⟩ : Fin 5) j)
      = boxes halfProd (centre (sc v0 j)) (centre (sc v3 j)) (sc dx j) (sc dy j) (sc h j) (sc w j)
          (sc v14 j) (sc v16 j) (sc v18 j) (sc v22 j) := by
  unfold k0_pay1
  refine (cat5_row _ _ _ _ _ _ 4 (by omega) _ rfl j).trans ?_
  refine (shapeCast_a_1a_apply _ _ 0 j).trans ?_
  rfl

/-- Rows 0 to 3 of the stored payload at lane `j` are the four quotients handed to it. -/
theorem pay1_row (v13 v34 v37 v40 v43 v46 q0 q1 q2 q3 v238 v242 v246 v249 v250 : FVec Ideal S32000 .f32)
    (k : Nat) (hk : k < 4) (j : Fin 32000) :
    k0_pay1 (F := Ideal) v13 v34 v37 v40 v43 v46 q0 q1 q2 q3 v238 v242 v246 v249 v250 (ix2 (⟨k, by omega⟩ : Fin 5) j)
      = (![q0, q1, q2, q3] ⟨k, hk⟩) (ix1 j) := by
  unfold k0_pay1
  interval_cases k
  · exact (cat5_row _ _ _ _ _ _ 0 (by omega) _ rfl j).trans (shapeCast_a_1a_apply _ _ 0 j)
  · exact (cat5_row _ _ _ _ _ _ 1 (by omega) _ rfl j).trans (shapeCast_a_1a_apply _ _ 0 j)
  · exact (cat5_row _ _ _ _ _ _ 2 (by omega) _ rfl j).trans (shapeCast_a_1a_apply _ _ 0 j)
  · exact (cat5_row _ _ _ _ _ _ 3 (by omega) _ rfl j).trans (shapeCast_a_1a_apply _ _ 0 j)

/-! ## The stored block -/

/-- The zero offsets of the one whole-block store. -/
theorem hz : (![0, 0] : Fin 2 → Nat) = fun _ => 0 := by
  funext a
  match a with
  | ⟨0, _⟩ => rfl
  | ⟨1, _⟩ => rfl

/-- The stored block at row `a`, lane `j`. -/
theorem tile_apply (x0 : Vec Ideal S2x32000 .i32) (x1 : Vec Ideal S25x32000 .f32) (x2 : Vec Ideal S5x32000 .f32)
    (a : Fin 5) (j : Fin 32000) :
    out0_3 (F := Ideal) x0 x1 x2 (ix2 a j)
      = boxes halfProd (centre (x0 (ix2 (0 : Fin 2) j))) (centre (x0 (ix2 (1 : Fin 2) j)))
          (x1 (ix2 (prow a 1) j)) (x1 (ix2 (prow a 2) j)) (x1 (ix2 (prow a 3) j)) (x1 (ix2 (prow a 4) j))
          (x2 (ix2 (1 : Fin 5) j)) (x2 (ix2 (2 : Fin 5) j)) (x2 (ix2 (3 : Fin 5) j)) (x2 (ix2 (4 : Fin 5) j)) := by
  have c0 : sc (View.ld x0 r0_0) j = x0 (ix2 (0 : Fin 2) j) := sc_ld x0 0 _ (by omega) j
  have c1 : sc (View.ld x0 r0_1) j = x0 (ix2 (1 : Fin 2) j) := sc_ld x0 1 _ (by omega) j
  have g1 : sc (View.ld x2 r0_2) j = x2 (ix2 (1 : Fin 5) j) := sc_ld x2 1 _ (by omega) j
  have g2 : sc (View.ld x2 r0_3) j = x2 (ix2 (2 : Fin 5) j) := sc_ld x2 2 _ (by omega) j
  have g3 : sc (View.ld x2 r0_4) j = x2 (ix2 (3 : Fin 5) j) := sc_ld x2 3 _ (by omega) j
  have g4 : sc (View.ld x2 r0_5) j = x2 (ix2 (4 : Fin 5) j) := sc_ld x2 4 _ (by omega) j
  unfold out0_3
  rw [View.canon_unit_zero hz]
  obtain ⟨k, hk⟩ := a
  interval_cases k
  · refine (pay1_row _ _ _ _ _ _ _ _ _ _ _ _ _ _ _ 0 (by omega) j).trans ?_
    refine (anchor0_lane _ _ _ _ _ _ _ _ _ _ j).trans ?_
    rw [c0, c1, g1, g2, g3, g4, sc_ld x1 1 _ (by omega) j, sc_ld x1 2 _ (by omega) j, sc_ld x1 3 _ (by omega) j,
      sc_ld x1 4 _ (by omega) j]
    rfl
  · refine (pay1_row _ _ _ _ _ _ _ _ _ _ _ _ _ _ _ 1 (by omega) j).trans ?_
    refine (anchor1_lane _ _ _ _ _ _ _ _ _ _ j).trans ?_
    rw [c0, c1, g1, g2, g3, g4, sc_ld x1 6 _ (by omega) j, sc_ld x1 7 _ (by omega) j, sc_ld x1 8 _ (by omega) j,
      sc_ld x1 9 _ (by omega) j]
    rfl
  · refine (pay1_row _ _ _ _ _ _ _ _ _ _ _ _ _ _ _ 2 (by omega) j).trans ?_
    refine (anchor2_lane _ _ _ _ _ _ _ _ _ _ j).trans ?_
    rw [c0, c1, g1, g2, g3, g4, sc_ld x1 11 _ (by omega) j, sc_ld x1 12 _ (by omega) j, sc_ld x1 13 _ (by omega) j,
      sc_ld x1 14 _ (by omega) j]
    rfl
  · refine (pay1_row _ _ _ _ _ _ _ _ _ _ _ _ _ _ _ 3 (by omega) j).trans ?_
    refine (anchor3_lane _ _ _ _ _ _ _ _ _ _ j).trans ?_
    rw [c0, c1, g1, g2, g3, g4, sc_ld x1 16 _ (by omega) j, sc_ld x1 17 _ (by omega) j, sc_ld x1 18 _ (by omega) j,
      sc_ld x1 19 _ (by omega) j]
    rfl
  · refine (anchor4_lane _ _ _ _ _ _ _ _ _ _ _ _ _ _ j).trans ?_
    rw [c0, c1, g1, g2, g3, g4, sc_ld x1 21 _ (by omega) j, sc_ld x1 22 _ (by omega) j, sc_ld x1 23 _ (by omega) j,
      sc_ld x1 24 _ (by omega) j]
    rfl

end Cert.KernelIdeal.Tile
end
-- ==== Proof.KerEntry.lean ====
/-
  The arrays the kernel's region finds: before it the program transposes the cell numbers and the ground
  truth, and lays each box's 5 × 5 predictions in one row of 25 and transposes that, so that the boxes
  run along the last axis.
-/
import proofs.«123306_j31336081391713_1_alg».proof.Proof.Gen.KernelIdeal.Frame
import proofs.«123306_j31336081391713_1_alg».proof.Proof.BoxIou
import Idealize.ShloMosaic.Lib.Pipeline.Value
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx Idealize.SL.Sem Cert.BoxIou

variable (m : (ℓ : Loc nD τ sig) → Buf (Elt Ideal) ℓ)

/-- The transposed cell numbers, as the region finds them. -/
theorem cells_eq (c : Dev nD) :
    (V m c main_v0 : S2x4000000.Idx → BitVec 32)
      = transpose S2x4000000 [1, 0] (m ((c.tc : Thread nD τ).loc main_arg0)) transposes_S4000000x2_S2x4000000_1_0 := by
  show StableHlo.after hostOps0 (fun b => m (c, b)) (Proc.devRef .tc main_v0) = _
  after_results

/-- The transposed cell numbers: entry `(k, n)` is cell number `k` of box `n`. -/
theorem cells_at (c : Dev nD) (k : Fin 2) (n : Fin 4000000) :
    (V m c main_v0 : S2x4000000.Idx → BitVec 32) (ix2 k n)
      = (m ((c.tc : Thread nD τ).loc main_arg0) : S4000000x2.Idx → BitVec 32) (ix2 n k) := by
  rw [cells_eq]
  exact transpose_ix2_apply _ _ k n

/-- The predictions laid 25 to a row and transposed, as the region finds them. -/
theorem preds_eq (c : Dev nD) :
    (V m c main_v2 : S25x4000000.Idx → EReal)
      = transpose S25x4000000 [1, 0] (shapeCast S4000000x25 (m ((c.tc : Thread nD τ).loc main_arg1)) shapeCasts_S4000000x5x5_S4000000x25) transposes_S4000000x25_S25x4000000_1_0 := by
  show StableHlo.after hostOps0 (fun b => m (c, b)) (Proc.devRef .tc main_v2) = _
  after_results
  rfl

/-- The flattened and transposed predictions: entry `(5 a + k, n)` is entry `k` of anchor `a` of box `n`
    (row-major, `(n · 5 + a) · 5 + k = n · 25 + (5 a + k)`). -/
theorem preds_at (c : Dev nD) (a k : Fin 5) (n : Fin 4000000) :
    (V m c main_v2 : S25x4000000.Idx → EReal) (ix2 (prow a k) n)
      = (m ((c.tc : Thread nD τ).loc main_arg1) : S4000000x5x5.Idx → EReal) (ix3 n a k) := by
  rw [preds_eq]
  refine (transpose_ix2_apply _ _ (prow a k) n).trans ?_
  refine shapeCast_apply _ _ _ _ ?_
  show (S4000000x5x5.rowMajor (ix3 n a k)).val = (S4000000x25.rowMajor (ix2 n (prow a k))).val
  rw [Shape.rowMajor_val_three, Shape.rowMajor_val_two]
  show (n.val * 5 + a.val) * 5 + k.val = n.val * 25 + (5 * a.val + k.val)
  omega

/-- The transposed ground truth, as the region finds it. -/
theorem truth_eq (c : Dev nD) :
    (V m c main_v3 : S5x4000000.Idx → EReal)
      = transpose S5x4000000 [1, 0] (m ((c.tc : Thread nD τ).loc main_arg2)) transposes_S4000000x5_S5x4000000_1_0 := by
  show StableHlo.after hostOps0 (fun b => m (c, b)) (Proc.devRef .tc main_v3) = _
  after_results

/-- The transposed ground truth: entry `(k, n)` is entry `k` of box `n`. -/
theorem truth_at (c : Dev nD) (k : Fin 5) (n : Fin 4000000) :
    (V m c main_v3 : S5x4000000.Idx → EReal) (ix2 k n)
      = (m ((c.tc : Thread nD τ).loc main_arg2) : S4000000x5.Idx → EReal) (ix2 n k) := by
  rw [truth_eq]
  exact transpose_ix2_apply _ _ k n

end Cert.KernelIdeal.Entry

end
-- ==== Proof.KerArray.lean ====
/-
  The kernel's output array after the whole grid has run. Point `t` of the 125 handles boxes
  `32000 t … 32000 t + 31999`: it fetches those lanes of the three transposed inputs and writes those lanes
  of the 5 × 4000000 output. The blocks tile the array, so the array ends as ONE function of the
  program's arguments: entry `(a, n)` is the intersection over union of anchor `a` of box `n` with box
  `n`'s ground truth.
-/
import proofs.«123306_j31336081391713_1_alg».proof.Proof.KerTile
import proofs.«123306_j31336081391713_1_alg».proof.Proof.KerEntry

noncomputable section

namespace Cert.KernelIdeal.Arr

open Cert.KernelIdeal Cert.KernelIdeal.Gen Idealize.ShloMosaic Idealize.ShloMosaic.TcCoe Idealize.ShloMosaic.ValueIdx Idealize.SL.Sem Cert.BoxIou
open Idealize.ShloMosaic.Pipeline (Dat)

variable (m : (ℓ : Loc nD τ sig) → Buf (Elt Ideal) ℓ)

/-- The result with the boxes along the last axis: entry `(a, n)` is the result's entry `(n, a)`. -/
def resultT (cell : S4000000x2.Idx → BitVec 32) (out : S4000000x5x5.Idx → EReal) (tgt : S4000000x5.Idx → EReal) :
    S5x4000000.Idx → EReal := fun i => result halfProd cell out tgt (ix2 (i 1) (i 0))

/-- Every window's block at grid point `t` is block `(0, t)`: all rows, lanes `32000 t …` (decided over the 125 points). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 125 := lt_of_lt_of_eq t.isLt N_0

/-- Lane `j` of grid point `t` is box `32000 t + j`. -/
def boxOf (t : Fin cfg0.N) (j : Fin 32000) : Fin 4000000 :=
  ⟨t.val * 32000 + j.val, by have := point_lt t; have := j.isLt; omega⟩

/-- The cell block at a point: row `k`, lane `j` is the transposed cell array at `(k, box)`. -/
theorem cells_blk (c : Dev nD) (t : Fin cfg0.N) (k : Fin 2) (j : Fin 32000) :
    (iblk m c 0 t : S2x32000.Idx → BitVec 32) (ix2 k j) = (V m c main_v0 : S2x4000000.Idx → BitVec 32) (ix2 k (boxOf t j)) := by
  obtain ⟨e0, e1, -⟩ := idx_facts t
  have h : ((cfg0.win 0).blk t).view.emb (ix2 k j) = (ix2 k (boxOf t j) : S2x4000000.Idx) := by
    funext a; apply Fin.ext
    match a with
    | ⟨0, _⟩ => show win0_0.index t (0 : Fin 2) * 2 + 1 * k.val = k.val; omega
    | ⟨1, _⟩ => show win0_0.index t (1 : Fin 2) * 32000 + 1 * j.val = t.val * 32000 + j.val; omega
  show V m c main_v0 (((cfg0.win 0).blk t).view.emb (ix2 k j)) = _
  rw [h]

/-- The prediction block at a point: row `r`, lane `j` is the transposed prediction array at `(r, box)`. -/
theorem preds_blk (c : Dev nD) (t : Fin cfg0.N) (r : Fin 25) (j : Fin 32000) :
    (iblk m c 1 t : S25x32000.Idx → EReal) (ix2 r j) = (V m c main_v2 : S25x4000000.Idx → EReal) (ix2 r (boxOf t j)) := by
  obtain ⟨-, -, e0, e1, -⟩ := idx_facts t
  have h : ((cfg0.win 1).blk t).view.emb (ix2 r j) = (ix2 r (boxOf t j) : S25x4000000.Idx) := by
    funext a; apply Fin.ext
    match a with
    | ⟨0, _⟩ => show win0_1.index t (0 : Fin 2) * 25 + 1 * r.val = r.val; omega
    | ⟨1, _⟩ => show win0_1.index t (1 : Fin 2) * 32000 + 1 * j.val = t.val * 32000 + j.val; omega
  show V m c main_v2 (((cfg0.win 1).blk t).view.emb (ix2 r j)) = _
  rw [h]

/-- The ground-truth block at a point: row `k`, lane `j` is the transposed truth array at `(k, box)`. -/
theorem truth_blk (c : Dev nD) (t : Fin cfg0.N) (k : Fin 5) (j : Fin 32000) :
    (iblk m c 2 t : S5x32000.Idx → EReal) (ix2 k j) = (V m c main_v3 : S5x4000000.Idx → EReal) (ix2 k (boxOf t j)) := by
  obtain ⟨-, -, -, -, e0, e1, -⟩ := idx_facts t
  have h : ((cfg0.win 2).blk t).view.emb (ix2 k j) = (ix2 k (boxOf t j) : S5x4000000.Idx) := by
    funext a; apply Fin.ext
    match a with
    | ⟨0, _⟩ => show win0_2.index t (0 : Fin 2) * 5 + 1 * k.val = k.val; omega
    | ⟨1, _⟩ => show win0_2.index t (1 : Fin 2) * 32000 + 1 * j.val = t.val * 32000 + j.val; omega
  show V m c main_v3 (((cfg0.win 2).blk t).view.emb (ix2 k j)) = _
  rw [h]

/-- What grid point `t` writes back is block `t` of the transposed result: at row `a`, lane `j` the stored
    block holds the formula of the three input blocks' entries at lane `j`, which are the arguments' entries
    of box `32000 t + j`. -/
theorem flushed3_eq (c : Dev nD) (t : Fin cfg0.N) :
    (dats m 0 c).flushed 3 t = ((cfg0.win 3).blk t).view.read (Elt Ideal)
      (resultT (m ((c.tc : Thread nD τ).loc main_arg0)) (m ((c.tc : Thread nD τ).loc main_arg1)) (m ((c.tc : Thread nD τ).loc main_arg2))) := by
  show (cfg0.win 3).cut (grid0.coords t) ((dats m 0 c).after 3 t) = _
  rw [after0_3]
  funext y
  obtain ⟨a, j, rfl⟩ : ∃ (a : Fin 5) (j : Fin 32000), y = ix2 a j := ⟨y 0, y 1, eq_ix2 y⟩
  obtain ⟨-, -, -, -, -, -, e0, e1⟩ := idx_facts t
  have h : ((cfg0.win 3).blk t).view.emb (ix2 a j) = (ix2 a (boxOf t j) : S5x4000000.Idx) := by
    funext d; apply Fin.ext
    match d with
    | ⟨0, _⟩ => show win0_3.index t (0 : Fin 2) * 5 + 1 * a.val = a.val; omega
    | ⟨1, _⟩ => show win0_3.index t (1 : Fin 2) * 32000 + 1 * j.val = t.val * 32000 + j.val; omega
  show out0_3 (F := Ideal) (iblk m c 0 t) (iblk m c 1 t) (iblk m c 2 t) (ix2 a j)
    = resultT (m ((c.tc : Thread nD τ).loc main_arg0)) (m ((c.tc : Thread nD τ).loc main_arg1)) (m ((c.tc : Thread nD τ).loc main_arg2))
        (((cfg0.win 3).blk t).view.emb (ix2 a j))
  rw [h]
  refine (Cert.KernelIdeal.Tile.tile_apply (iblk m c 0 t) (iblk m c 1 t) (iblk m c 2 t) a j).trans ?_
  rw [cells_blk m c t 0 j, cells_blk m c t 1 j,
    preds_blk m c t (prow a 1) j, preds_blk m c t (prow a 2) j, preds_blk m c t (prow a 3) j, preds_blk m c t (prow a 4) j,
    truth_blk m c t 1 j, truth_blk m c t 2 j, truth_blk m c t 3 j, truth_blk m c t 4 j,
    Cert.KernelIdeal.Entry.cells_at, Cert.KernelIdeal.Entry.cells_at,
    Cert.KernelIdeal.Entry.preds_at, Cert.KernelIdeal.Entry.preds_at, Cert.KernelIdeal.Entry.preds_at, Cert.KernelIdeal.Entry.preds_at,
    Cert.KernelIdeal.Entry.truth_at, Cert.KernelIdeal.Entry.truth_at, Cert.KernelIdeal.Entry.truth_at, Cert.KernelIdeal.Entry.truth_at]
  rfl

/-- An index of the output array is in point `t`'s block iff each coordinate is in the block's range. -/
theorem mem_blk3 (t : Fin cfg0.N) (i : S5x4000000.Idx) :
    i ∈ ((cfg0.win 3).blk t).view.set ↔ ∀ a : Fin 2, win0_3.index t a * S5x32000.size a ≤ (i a).val ∧ (i a).val < win0_3.index t a * S5x32000.size a + S5x32000.size a := by
  show i ∈ ((View.whole main_v4).slice (win0_3.rect t)).set ↔ _
  rw [View.set_slice_whole, Rect.mem_set_unit]
  exact Iff.rfl

/-- The blocks tile the array: box `n` is written by point `n / 32000`. -/
theorem cover3 (i : S5x4000000.Idx) :
    ∃ t : Fin cfg0.N, (cfg0.win 3).flush t = true ∧ i ∈ ((cfg0.win 3).blk t).view.set := by
  have hi0 : (i 0).val < 5 := (i 0).isLt
  have hi1 : (i 1).val < 4000000 := (i 1).isLt
  have hN : cfg0.N = 125 := N_0
  let t : Fin cfg0.N := ⟨(i 1).val / 32000, by rw [hN]; omega⟩
  have ht : t.val = (i 1).val / 32000 := rfl
  obtain ⟨-, -, -, -, -, -, e0, e1⟩ := idx_facts t
  refine ⟨t, flush0_3 t, ?_⟩
  rw [mem_blk3]
  intro a
  match a with
  | ⟨0, _⟩ => show win0_3.index t (0 : Fin 2) * 5 ≤ (i 0).val ∧ (i 0).val < win0_3.index t (0 : Fin 2) * 5 + 5; omega
  | ⟨1, _⟩ => show win0_3.index t (1 : Fin 2) * 32000 ≤ (i 1).val ∧ (i 1).val < win0_3.index t (1 : Fin 2) * 32000 + 32000; omega

/-- The output window's array after the run. -/
theorem final3 (c : Dev nD) :
    (dats m 0 c).arrAt 3 cfg0.N
      = resultT (m ((c.tc : Thread nD τ).loc main_arg0)) (m ((c.tc : Thread nD τ).loc main_arg1)) (m ((c.tc : Thread nD τ).loc main_arg2)) :=
  (dats m 0 c).arrAt_eq_of_cover 3 _ (fun t _ => flushed3_eq m c t) cover3

end Cert.KernelIdeal.Arr

end
-- ==== Proof.KerRun.lean ====
/-
  The idealized kernel program's run, with its result named: after the region the program transposes the
  5 × 4000000 array back, so the returned array's entry `(n, a)` is the intersection over union of anchor
  `a` of box `n` with box `n`'s ground truth, half taken as the product with one half.
-/
import proofs.«123306_j31336081391713_1_alg».proof.Proof.KerArray

noncomputable section

namespace Cert.KernelIdeal.Run

open Cert.KernelIdeal Cert.KernelIdeal.Gen Idealize.ShloMosaic Idealize.ShloMosaic.TcCoe Idealize.ShloMosaic.ValueIdx Idealize.SL.Sem Cert.BoxIou
open Idealize.ShloMosaic.Pipeline (Dat)

variable (m : (ℓ : Loc nD τ sig) → Buf (Elt Ideal) ℓ) (ρ : Dev nD → PrngReg)

/-- What the program's last line leaves in the returned array: the transpose of the output window's array
    after the run, so its entry `(n, a)` is the transposed result's entry `(a, n)`. -/
theorem returned_eq (c : Dev nD) :
    Pipeline.afterTail₀ cfgs (dats m) 0 (V0 m) [hostOps1] c main_v5
      = result halfProd (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v5) = _
  after_results
  funext i
  obtain ⟨n, a, rfl⟩ : ∃ (n : Fin 4000000) (a : Fin 5), i = ix2 n a := ⟨i 0, i 1, eq_ix2 i⟩
  refine (transpose_ix2_apply _ _ n a).trans ?_
  exact congrFun ((Pipeline.withArrays_arr spec0 launch0.win.arr_inj c (V0 m c) (fun w => (dats m 0 c).arrAt w (cfgs 0).N) 3).trans (Cert.KernelIdeal.Arr.final3 m c)) (ix2 a n)

/-- Every weakly fair execution terminates with the returned array at the result and the arguments unchanged. -/
theorem run : θ_run (defs (F := Ideal)) (onTc (τ := τ) (main (F := Ideal))) ⟨m, fun _ => 0, ρ⟩ fun r => ∀ c : Dev nD,
      r.2.mem ((c.tc : Thread nD τ).loc main_v5)
        = result halfProd (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (returned_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Run

end
-- ==== Proof.RefCorners.lean ====
/-
  The reference's corner arrays. The reference computes, for every box and anchor, the four corners
  `x₁, y₁, x₂, y₂` of the predicted box and stacks them along a last axis of extent 4; it does the same for
  the ground-truth box (one per box). Read at an index, each stacked entry is the corner formula of the
  entries of the arguments, half taken as the quotient by two.

  The proof reads each stage at an index, innermost stages first. A slice of the last axis followed by a
  reshape reads the argument at `(n, a, k)`, `k` the slice's offset: the reshape's flat position `n · 5 + a`
  splits back into `n` and `a`. A cell centre is `k · 20 + 10` of the cell number read as a signed integer,
  and a broadcast over the anchors forgets `a`. A size or offset is scaled by the interval 20, a half size is
  the scaled size over 2, and a corner is the centre plus the scaled offset, less or plus the half size. The
  stack along the last axis reads piece `k` at coordinate 0 of the joined axis.
-/
import proofs.«123306_j31336081391713_1_alg».proof.Proof.Gen.ReferenceIdeal.Read
import proofs.«123306_j31336081391713_1_alg».proof.Proof.BoxIou
import Idealize.ShloMosaic.Lib.Pipeline.Value
import Idealize.ShloMosaic.Lib.ValueLayout
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx Cert.BoxIou

/-! ## The two cell centres, at box `n` -/

theorem corner_v17 (x0 : S4000000x2.Idx → BitVec 32) (n : Fin 4000000) :
    val_main_v17 (F := Ideal) x0 (ix2 n (0 : Fin 1)) = centre (x0 (ix2 n (0 : Fin 2))) := by
  rw [val_main_v17_apply, val_main_v15_apply, val_main_v13_apply, val_main_v12_apply, val_main_v14_apply,
    val_main_v16_apply, val_main_cst_1_apply, val_main_cst_2_apply]
  have e : idx_main_v12 (ix2 n (0 : Fin 1)) = ix2 n (0 : Fin 2) := by
    funext d; match d with | ⟨0, _⟩ => rfl | ⟨1, _⟩ => rfl
  rw [e]; rfl

theorem corner_v23 (x0 : S4000000x2.Idx → BitVec 32) (n : Fin 4000000) :
    val_main_v23 (F := Ideal) x0 (ix2 n (0 : Fin 1)) = centre (x0 (ix2 n (1 : Fin 2))) := by
  rw [val_main_v23_apply, val_main_v21_apply, val_main_v19_apply, val_main_v18_apply, val_main_v20_apply,
    val_main_v22_apply, val_main_cst_3_apply, val_main_cst_4_apply]
  have e : idx_main_v18 (ix2 n (0 : Fin 1)) = ix2 n (1 : Fin 2) := by
    funext d; match d with | ⟨0, _⟩ => rfl | ⟨1, _⟩ => rfl
  rw [e]; rfl

/-! ## The predicted boxes: offsets and sizes of anchor `a` of box `n`, entries 1 to 4 of the argument -/

theorem corner_v1 (x1 : S4000000x5x5.Idx → EReal) (n : Fin 4000000) (a : Fin 5) :
    val_main_v1 (F := Ideal) x1 (ix2 n a) = x1 (ix3 n a (1 : Fin 5)) := by
  rw [val_main_v1_apply, val_main_v0_apply]
  refine congrArg x1 ?_
  funext d
  have hn := n.isLt; have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => rfl

theorem corner_v3 (x1 : S4000000x5x5.Idx → EReal) (n : Fin 4000000) (a : Fin 5) :
    val_main_v3 (F := Ideal) x1 (ix2 n a) = x1 (ix3 n a (2 : Fin 5)) := by
  rw [val_main_v3_apply, val_main_v2_apply]
  refine congrArg x1 ?_
  funext d
  have hn := n.isLt; have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => rfl

theorem corner_v5 (x1 : S4000000x5x5.Idx → EReal) (n : Fin 4000000) (a : Fin 5) :
    val_main_v5 (F := Ideal) x1 (ix2 n a) = x1 (ix3 n a (3 : Fin 5)) := by
  rw [val_main_v5_apply, val_main_v4_apply]
  refine congrArg x1 ?_
  funext d
  have hn := n.isLt; have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => rfl

theorem corner_v7 (x1 : S4000000x5x5.Idx → EReal) (n : Fin 4000000) (a : Fin 5) :
    val_main_v7 (F := Ideal) x1 (ix2 n a) = x1 (ix3 n a (4 : Fin 5)) := by
  rw [val_main_v7_apply, val_main_v6_apply]
  refine congrArg x1 ?_
  funext d
  have hn := n.isLt; have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => rfl

/-! ## Offsets and sizes scaled by the interval -/

theorem corner_v9 (x1 : S4000000x5x5.Idx → EReal) (n : Fin 4000000) (a : Fin 5) :
    val_main_v9 (F := Ideal) x1 (ix2 n a) = x1 (ix3 n a (3 : Fin 5)) * interval := by
  rw [val_main_v9_apply, corner_v5, val_main_v8_apply, val_main_cst_apply]; rfl

theorem corner_v11 (x1 : S4000000x5x5.Idx → EReal) (n : Fin 4000000) (a : Fin 5) :
    val_main_v11 (F := Ideal) x1 (ix2 n a) = x1 (ix3 n a (4 : Fin 5)) * interval := by
  rw [val_main_v11_apply, corner_v7, val_main_v10_apply, val_main_cst_0_apply]; rfl

theorem corner_v25 (x1 : S4000000x5x5.Idx → EReal) (n : Fin 4000000) (a : Fin 5) :
    val_main_v25 (F := Ideal) x1 (ix2 n a) = x1 (ix3 n a (1 : Fin 5)) * interval := by
  rw [val_main_v25_apply, corner_v1, val_main_v24_apply, val_main_cst_5_apply]; rfl

theorem corner_v29 (x1 : S4000000x5x5.Idx → EReal) (n : Fin 4000000) (a : Fin 5) :
    val_main_v29 (F := Ideal) x1 (ix2 n a) = x1 (ix3 n a (2 : Fin 5)) * interval := by
  rw [val_main_v29_apply, corner_v3, val_main_v28_apply, val_main_cst_6_apply]; rfl

/-! ## The cell centres broadcast over the anchors, and the boxes' centres -/

theorem corner_v26 (x0 : S4000000x2.Idx → BitVec 32) (n : Fin 4000000) (a : Fin 5) :
    val_main_v26 (F := Ideal) x0 (ix2 n a) = centre (x0 (ix2 n (0 : Fin 2))) := by
  rw [val_main_v26_apply, ← corner_v17]
  refine congrArg (val_main_v17 (F := Ideal) x0) ?_
  funext d; match d with | ⟨0, _⟩ => rfl | ⟨1, _⟩ => rfl

theorem corner_v30 (x0 : S4000000x2.Idx → BitVec 32) (n : Fin 4000000) (a : Fin 5) :
    val_main_v30 (F := Ideal) x0 (ix2 n a) = centre (x0 (ix2 n (1 : Fin 2))) := by
  rw [val_main_v30_apply, ← corner_v23]
  refine congrArg (val_main_v23 (F := Ideal) x0) ?_
  funext d; match d with | ⟨0, _⟩ => rfl | ⟨1, _⟩ => rfl

theorem corner_v27 (x0 : S4000000x2.Idx → BitVec 32) (x1 : S4000000x5x5.Idx → EReal) (n : Fin 4000000) (a : Fin 5) :
    val_main_v27 (F := Ideal) x0 x1 (ix2 n a)
      = centre (x0 (ix2 n (0 : Fin 2))) + x1 (ix3 n a (1 : Fin 5)) * interval := by
  rw [val_main_v27_apply, corner_v26, corner_v25]; rfl

theorem corner_v31 (x0 : S4000000x2.Idx → BitVec 32) (x1 : S4000000x5x5.Idx → EReal) (n : Fin 4000000) (a : Fin 5) :
    val_main_v31 (F := Ideal) x0 x1 (ix2 n a)
      = centre (x0 (ix2 n (1 : Fin 2))) + x1 (ix3 n a (2 : Fin 5)) * interval := by
  rw [val_main_v31_apply, corner_v30, corner_v29]; rfl

/-! ## The half sizes, quotients by two -/

theorem corner_v33 (x1 : S4000000x5x5.Idx → EReal) (n : Fin 4000000) (a : Fin 5) :
    val_main_v33 (F := Ideal) x1 (ix2 n a) = halfQuot (x1 (ix3 n a (4 : Fin 5)) * interval) := by
  rw [val_main_v33_apply, corner_v11, val_main_v32_apply, val_main_cst_7_apply]; rfl

theorem corner_v36 (x1 : S4000000x5x5.Idx → EReal) (n : Fin 4000000) (a : Fin 5) :
    val_main_v36 (F := Ideal) x1 (ix2 n a) = halfQuot (x1 (ix3 n a (3 : Fin 5)) * interval) := by
  rw [val_main_v36_apply, corner_v9, val_main_v35_apply, val_main_cst_8_apply]; rfl

theorem corner_v39 (x1 : S4000000x5x5.Idx → EReal) (n : Fin 4000000) (a : Fin 5) :
    val_main_v39 (F := Ideal) x1 (ix2 n a) = halfQuot (x1 (ix3 n a (4 : Fin 5)) * interval) := by
  rw [val_main_v39_apply, corner_v11, val_main_v38_apply, val_main_cst_9_apply]; rfl

theorem corner_v42 (x1 : S4000000x5x5.Idx → EReal) (n : Fin 4000000) (a : Fin 5) :
    val_main_v42 (F := Ideal) x1 (ix2 n a) = halfQuot (x1 (ix3 n a (3 : Fin 5)) * interval) := by
  rw [val_main_v42_apply, corner_v9, val_main_v41_apply, val_main_cst_10_apply]; rfl

/-! ## The four corners `x₁, y₁, x₂, y₂` of the predicted box, and each with a unit last axis -/

theorem corner_v34 (x0 : S4000000x2.Idx → BitVec 32) (x1 : S4000000x5x5.Idx → EReal) (n : Fin 4000000) (a : Fin 5) :
    val_main_v34 (F := Ideal) x0 x1 (ix2 n a)
      = lo halfQuot (centre (x0 (ix2 n (1 : Fin 2)))) (x1 (ix3 n a (2 : Fin 5))) (x1 (ix3 n a (4 : Fin 5))) := by
  rw [val_main_v34_apply, corner_v31, corner_v33]; rfl

theorem corner_v37 (x0 : S4000000x2.Idx → BitVec 32) (x1 : S4000000x5x5.Idx → EReal) (n : Fin 4000000) (a : Fin 5) :
    val_main_v37 (F := Ideal) x0 x1 (ix2 n a)
      = lo halfQuot (centre (x0 (ix2 n (0 : Fin 2)))) (x1 (ix3 n a (1 : Fin 5))) (x1 (ix3 n a (3 : Fin 5))) := by
  rw [val_main_v37_apply, corner_v27, corner_v36]; rfl

theorem corner_v40 (x0 : S4000000x2.Idx → BitVec 32) (x1 : S4000000x5x5.Idx → EReal) (n : Fin 4000000) (a : Fin 5) :
    val_main_v40 (F := Ideal) x0 x1 (ix2 n a)
      = hi halfQuot (centre (x0 (ix2 n (1 : Fin 2)))) (x1 (ix3 n a (2 : Fin 5))) (x1 (ix3 n a (4 : Fin 5))) := by
  rw [val_main_v40_apply, corner_v31, corner_v39]; rfl

theorem corner_v43 (x0 : S4000000x2.Idx → BitVec 32) (x1 : S4000000x5x5.Idx → EReal) (n : Fin 4000000) (a : Fin 5) :
    val_main_v43 (F := Ideal) x0 x1 (ix2 n a)
      = hi halfQuot (centre (x0 (ix2 n (0 : Fin 2)))) (x1 (ix3 n a (1 : Fin 5))) (x1 (ix3 n a (3 : Fin 5))) := by
  rw [val_main_v43_apply, corner_v27, corner_v42]; rfl

theorem corner_v44 (x0 : S4000000x2.Idx → BitVec 32) (x1 : S4000000x5x5.Idx → EReal) (n : Fin 4000000) (a : Fin 5) :
    val_main_v44 (F := Ideal) x0 x1 (ix3 n a (0 : Fin 1))
      = lo halfQuot (centre (x0 (ix2 n (1 : Fin 2)))) (x1 (ix3 n a (2 : Fin 5))) (x1 (ix3 n a (4 : Fin 5))) := by
  rw [val_main_v44_apply, ← corner_v34]
  refine congrArg (val_main_v34 (F := Ideal) x0 x1) ?_
  funext d; match d with | ⟨0, _⟩ => rfl | ⟨1, _⟩ => rfl

theorem corner_v45 (x0 : S4000000x2.Idx → BitVec 32) (x1 : S4000000x5x5.Idx → EReal) (n : Fin 4000000) (a : Fin 5) :
    val_main_v45 (F := Ideal) x0 x1 (ix3 n a (0 : Fin 1))
      = lo halfQuot (centre (x0 (ix2 n (0 : Fin 2)))) (x1 (ix3 n a (1 : Fin 5))) (x1 (ix3 n a (3 : Fin 5))) := by
  rw [val_main_v45_apply, ← corner_v37]
  refine congrArg (val_main_v37 (F := Ideal) x0 x1) ?_
  funext d; match d with | ⟨0, _⟩ => rfl | ⟨1, _⟩ => rfl

theorem corner_v46 (x0 : S4000000x2.Idx → BitVec 32) (x1 : S4000000x5x5.Idx → EReal) (n : Fin 4000000) (a : Fin 5) :
    val_main_v46 (F := Ideal) x0 x1 (ix3 n a (0 : Fin 1))
      = hi halfQuot (centre (x0 (ix2 n (1 : Fin 2)))) (x1 (ix3 n a (2 : Fin 5))) (x1 (ix3 n a (4 : Fin 5))) := by
  rw [val_main_v46_apply, ← corner_v40]
  refine congrArg (val_main_v40 (F := Ideal) x0 x1) ?_
  funext d; match d with | ⟨0, _⟩ => rfl | ⟨1, _⟩ => rfl

theorem corner_v47 (x0 : S4000000x2.Idx → BitVec 32) (x1 : S4000000x5x5.Idx → EReal) (n : Fin 4000000) (a : Fin 5) :
    val_main_v47 (F := Ideal) x0 x1 (ix3 n a (0 : Fin 1))
      = hi halfQuot (centre (x0 (ix2 n (0 : Fin 2)))) (x1 (ix3 n a (1 : Fin 5))) (x1 (ix3 n a (3 : Fin 5))) := by
  rw [val_main_v47_apply, ← corner_v43]
  refine congrArg (val_main_v43 (F := Ideal) x0 x1) ?_
  funext d; match d with | ⟨0, _⟩ => rfl | ⟨1, _⟩ => rfl

/-- The predicted boxes' stacked corners at box `n`, anchor `a`, corner `k`. -/
theorem pred_corner (x0 : S4000000x2.Idx → BitVec 32) (x1 : S4000000x5x5.Idx → EReal)
    (n : Fin 4000000) (a : Fin 5) (k : Fin 4) :
    val_main_v48 (F := Ideal) x0 x1 (ix3 n a k)
      = corner halfQuot (centre (x0 (ix2 n (0 : Fin 2)))) (centre (x0 (ix2 n (1 : Fin 2))))
          (x1 (ix3 n a (1 : Fin 5))) (x1 (ix3 n a (2 : Fin 5))) (x1 (ix3 n a (3 : Fin 5))) (x1 (ix3 n a (4 : Fin 5))) k := by
  have hi : ∀ (c : Fin 4) (b : Fin S4000000x5x1.rank),
      b.cast (rfl : S4000000x5x1.rank = S4000000x5x4.rank) ≠ (2 : Fin S4000000x5x4.rank) →
      ((ix3 n a (0 : Fin 1) : S4000000x5x1.Idx) b).val = ((ix3 n a c : S4000000x5x4.Idx) (b.cast rfl)).val := by
    intro c b hb
    match b with
    | ⟨0, _⟩ => rfl
    | ⟨1, _⟩ => rfl
    | ⟨2, _⟩ => exact absurd rfl hb
  unfold val_main_v48
  match k with
  | ⟨0, _⟩ =>
    refine (concatenate_apply_piece (2 : Fin S4000000x5x4.rank) _ _ (ix3 n a ⟨0, _⟩) 0 (by exact (by decide : 0 < 4)) S4000000x5x1
      (val_main_v44 (F := Ideal) x0 x1) rfl rfl 0 rfl (ix3 n a (0 : Fin 1)) (hi _) rfl).trans ?_
    exact corner_v44 x0 x1 n a
  | ⟨1, _⟩ =>
    refine (concatenate_apply_piece (2 : Fin S4000000x5x4.rank) _ _ (ix3 n a ⟨1, _⟩) 1 (by exact (by decide : 1 < 4)) S4000000x5x1
      (val_main_v45 (F := Ideal) x0 x1) rfl rfl 1 rfl (ix3 n a (0 : Fin 1)) (hi _) rfl).trans ?_
    exact corner_v45 x0 x1 n a
  | ⟨2, _⟩ =>
    refine (concatenate_apply_piece (2 : Fin S4000000x5x4.rank) _ _ (ix3 n a ⟨2, _⟩) 2 (by exact (by decide : 2 < 4)) S4000000x5x1
      (val_main_v46 (F := Ideal) x0 x1) rfl rfl 2 rfl (ix3 n a (0 : Fin 1)) (hi _) rfl).trans ?_
    exact corner_v46 x0 x1 n a
  | ⟨3, _⟩ =>
    refine (concatenate_apply_piece (2 : Fin S4000000x5x4.rank) _ _ (ix3 n a ⟨3, _⟩) 3 (by exact (by decide : 3 < 4)) S4000000x5x1
      (val_main_v47 (F := Ideal) x0 x1) rfl rfl 3 rfl (ix3 n a (0 : Fin 1)) (hi _) rfl).trans ?_
    exact corner_v47 x0 x1 n a

/-! ## The ground-truth boxes: offsets and sizes of box `n`, entries 1 to 4 of the argument, and their scalings -/

theorem corner_v49 (x2 : S4000000x5.Idx → EReal) (n : Fin 4000000) :
    val_main_v49 (F := Ideal) x2 (ix2 n (0 : Fin 1)) = x2 (ix2 n (1 : Fin 5)) := by
  rw [val_main_v49_apply]
  refine congrArg x2 ?_
  funext d; match d with | ⟨0, _⟩ => rfl | ⟨1, _⟩ => rfl

theorem corner_v50 (x2 : S4000000x5.Idx → EReal) (n : Fin 4000000) :
    val_main_v50 (F := Ideal) x2 (ix2 n (0 : Fin 1)) = x2 (ix2 n (2 : Fin 5)) := by
  rw [val_main_v50_apply]
  refine congrArg x2 ?_
  funext d; match d with | ⟨0, _⟩ => rfl | ⟨1, _⟩ => rfl

theorem corner_v51 (x2 : S4000000x5.Idx → EReal) (n : Fin 4000000) :
    val_main_v51 (F := Ideal) x2 (ix2 n (0 : Fin 1)) = x2 (ix2 n (3 : Fin 5)) := by
  rw [val_main_v51_apply]
  refine congrArg x2 ?_
  funext d; match d with | ⟨0, _⟩ => rfl | ⟨1, _⟩ => rfl

theorem corner_v52 (x2 : S4000000x5.Idx → EReal) (n : Fin 4000000) :
    val_main_v52 (F := Ideal) x2 (ix2 n (0 : Fin 1)) = x2 (ix2 n (4 : Fin 5)) := by
  rw [val_main_v52_apply]
  refine congrArg x2 ?_
  funext d; match d with | ⟨0, _⟩ => rfl | ⟨1, _⟩ => rfl

theorem corner_v54 (x2 : S4000000x5.Idx → EReal) (n : Fin 4000000) :
    val_main_v54 (F := Ideal) x2 (ix2 n (0 : Fin 1)) = x2 (ix2 n (3 : Fin 5)) * interval := by
  rw [val_main_v54_apply, corner_v51, val_main_v53_apply, val_main_cst_11_apply]; rfl

theorem corner_v56 (x2 : S4000000x5.Idx → EReal) (n : Fin 4000000) :
    val_main_v56 (F := Ideal) x2 (ix2 n (0 : Fin 1)) = x2 (ix2 n (4 : Fin 5)) * interval := by
  rw [val_main_v56_apply, corner_v52, val_main_v55_apply, val_main_cst_12_apply]; rfl

theorem corner_v70 (x2 : S4000000x5.Idx → EReal) (n : Fin 4000000) :
    val_main_v70 (F := Ideal) x2 (ix2 n (0 : Fin 1)) = x2 (ix2 n (1 : Fin 5)) * interval := by
  rw [val_main_v70_apply, corner_v49, val_main_v69_apply, val_main_cst_17_apply]; rfl

theorem corner_v73 (x2 : S4000000x5.Idx → EReal) (n : Fin 4000000) :
    val_main_v73 (F := Ideal) x2 (ix2 n (0 : Fin 1)) = x2 (ix2 n (2 : Fin 5)) * interval := by
  rw [val_main_v73_apply, corner_v50, val_main_v72_apply, val_main_cst_18_apply]; rfl

theorem corner_v62 (x0 : S4000000x2.Idx → BitVec 32) (n : Fin 4000000) :
    val_main_v62 (F := Ideal) x0 (ix2 n (0 : Fin 1)) = centre (x0 (ix2 n (0 : Fin 2))) := by
  rw [val_main_v62_apply, val_main_v60_apply, val_main_v58_apply, val_main_v57_apply, val_main_v59_apply,
    val_main_v61_apply, val_main_cst_13_apply, val_main_cst_14_apply]
  have e : idx_main_v57 (ix2 n (0 : Fin 1)) = ix2 n (0 : Fin 2) := by
    funext d; match d with | ⟨0, _⟩ => rfl | ⟨1, _⟩ => rfl
  rw [e]; rfl

theorem corner_v68 (x0 : S4000000x2.Idx → BitVec 32) (n : Fin 4000000) :
    val_main_v68 (F := Ideal) x0 (ix2 n (0 : Fin 1)) = centre (x0 (ix2 n (1 : Fin 2))) := by
  rw [val_main_v68_apply, val_main_v66_apply, val_main_v64_apply, val_main_v63_apply, val_main_v65_apply,
    val_main_v67_apply, val_main_cst_15_apply, val_main_cst_16_apply]
  have e : idx_main_v63 (ix2 n (0 : Fin 1)) = ix2 n (1 : Fin 2) := by
    funext d; match d with | ⟨0, _⟩ => rfl | ⟨1, _⟩ => rfl
  rw [e]; rfl

theorem corner_v71 (x0 : S4000000x2.Idx → BitVec 32) (x2 : S4000000x5.Idx → EReal) (n : Fin 4000000) :
    val_main_v71 (F := Ideal) x0 x2 (ix2 n (0 : Fin 1))
      = centre (x0 (ix2 n (0 : Fin 2))) + x2 (ix2 n (1 : Fin 5)) * interval := by
  rw [val_main_v71_apply, corner_v62, corner_v70]; rfl

theorem corner_v74 (x0 : S4000000x2.Idx → BitVec 32) (x2 : S4000000x5.Idx → EReal) (n : Fin 4000000) :
    val_main_v74 (F := Ideal) x0 x2 (ix2 n (0 : Fin 1))
      = centre (x0 (ix2 n (1 : Fin 2))) + x2 (ix2 n (2 : Fin 5)) * interval := by
  rw [val_main_v74_apply, corner_v68, corner_v73]; rfl

theorem corner_v76 (x2 : S4000000x5.Idx → EReal) (n : Fin 4000000) :
    val_main_v76 (F := Ideal) x2 (ix2 n (0 : Fin 1)) = halfQuot (x2 (ix2 n (4 : Fin 5)) * interval) := by
  rw [val_main_v76_apply, corner_v56, val_main_v75_apply, val_main_cst_19_apply]; rfl

theorem corner_v79 (x2 : S4000000x5.Idx → EReal) (n : Fin 4000000) :
    val_main_v79 (F := Ideal) x2 (ix2 n (0 : Fin 1)) = halfQuot (x2 (ix2 n (3 : Fin 5)) * interval) := by
  rw [val_main_v79_apply, corner_v54, val_main_v78_apply, val_main_cst_20_apply]; rfl

theorem corner_v82 (x2 : S4000000x5.Idx → EReal) (n : Fin 4000000) :
    val_main_v82 (F := Ideal) x2 (ix2 n (0 : Fin 1)) = halfQuot (x2 (ix2 n (4 : Fin 5)) * interval) := by
  rw [val_main_v82_apply, corner_v56, val_main_v81_apply, val_main_cst_21_apply]; rfl

theorem corner_v85 (x2 : S4000000x5.Idx → EReal) (n : Fin 4000000) :
    val_main_v85 (F := Ideal) x2 (ix2 n (0 : Fin 1)) = halfQuot (x2 (ix2 n (3 : Fin 5)) * interval) := by
  rw [val_main_v85_apply, corner_v54, val_main_v84_apply, val_main_cst_22_apply]; rfl

theorem corner_v77 (x0 : S4000000x2.Idx → BitVec 32) (x2 : S4000000x5.Idx → EReal) (n : Fin 4000000) :
    val_main_v77 (F := Ideal) x0 x2 (ix2 n (0 : Fin 1))
      = lo halfQuot (centre (x0 (ix2 n (1 : Fin 2)))) (x2 (ix2 n (2 : Fin 5))) (x2 (ix2 n (4 : Fin 5))) := by
  rw [val_main_v77_apply, corner_v74, corner_v76]; rfl

theorem corner_v80 (x0 : S4000000x2.Idx → BitVec 32) (x2 : S4000000x5.Idx → EReal) (n : Fin 4000000) :
    val_main_v80 (F := Ideal) x0 x2 (ix2 n (0 : Fin 1))
      = lo halfQuot (centre (x0 (ix2 n (0 : Fin 2)))) (x2 (ix2 n (1 : Fin 5))) (x2 (ix2 n (3 : Fin 5))) := by
  rw [val_main_v80_apply, corner_v71, corner_v79]; rfl

theorem corner_v83 (x0 : S4000000x2.Idx → BitVec 32) (x2 : S4000000x5.Idx → EReal) (n : Fin 4000000) :
    val_main_v83 (F := Ideal) x0 x2 (ix2 n (0 : Fin 1))
      = hi halfQuot (centre (x0 (ix2 n (1 : Fin 2)))) (x2 (ix2 n (2 : Fin 5))) (x2 (ix2 n (4 : Fin 5))) := by
  rw [val_main_v83_apply, corner_v74, corner_v82]; rfl

theorem corner_v86 (x0 : S4000000x2.Idx → BitVec 32) (x2 : S4000000x5.Idx → EReal) (n : Fin 4000000) :
    val_main_v86 (F := Ideal) x0 x2 (ix2 n (0 : Fin 1))
      = hi halfQuot (centre (x0 (ix2 n (0 : Fin 2)))) (x2 (ix2 n (1 : Fin 5))) (x2 (ix2 n (3 : Fin 5))) := by
  rw [val_main_v86_apply, corner_v71, corner_v85]; rfl

theorem corner_v87 (x0 : S4000000x2.Idx → BitVec 32) (x2 : S4000000x5.Idx → EReal) (n : Fin 4000000) :
    val_main_v87 (F := Ideal) x0 x2 (ix3 n (0 : Fin 1) (0 : Fin 1))
      = lo halfQuot (centre (x0 (ix2 n (1 : Fin 2)))) (x2 (ix2 n (2 : Fin 5))) (x2 (ix2 n (4 : Fin 5))) := by
  rw [val_main_v87_apply, ← corner_v77]
  refine congrArg (val_main_v77 (F := Ideal) x0 x2) ?_
  funext d; match d with | ⟨0, _⟩ => rfl | ⟨1, _⟩ => rfl

theorem corner_v88 (x0 : S4000000x2.Idx → BitVec 32) (x2 : S4000000x5.Idx → EReal) (n : Fin 4000000) :
    val_main_v88 (F := Ideal) x0 x2 (ix3 n (0 : Fin 1) (0 : Fin 1))
      = lo halfQuot (centre (x0 (ix2 n (0 : Fin 2)))) (x2 (ix2 n (1 : Fin 5))) (x2 (ix2 n (3 : Fin 5))) := by
  rw [val_main_v88_apply, ← corner_v80]
  refine congrArg (val_main_v80 (F := Ideal) x0 x2) ?_
  funext d; match d with | ⟨0, _⟩ => rfl | ⟨1, _⟩ => rfl

theorem corner_v89 (x0 : S4000000x2.Idx → BitVec 32) (x2 : S4000000x5.Idx → EReal) (n : Fin 4000000) :
    val_main_v89 (F := Ideal) x0 x2 (ix3 n (0 : Fin 1) (0 : Fin 1))
      = hi halfQuot (centre (x0 (ix2 n (1 : Fin 2)))) (x2 (ix2 n (2 : Fin 5))) (x2 (ix2 n (4 : Fin 5))) := by
  rw [val_main_v89_apply, ← corner_v83]
  refine congrArg (val_main_v83 (F := Ideal) x0 x2) ?_
  funext d; match d with | ⟨0, _⟩ => rfl | ⟨1, _⟩ => rfl

theorem corner_v90 (x0 : S4000000x2.Idx → BitVec 32) (x2 : S4000000x5.Idx → EReal) (n : Fin 4000000) :
    val_main_v90 (F := Ideal) x0 x2 (ix3 n (0 : Fin 1) (0 : Fin 1))
      = hi halfQuot (centre (x0 (ix2 n (0 : Fin 2)))) (x2 (ix2 n (1 : Fin 5))) (x2 (ix2 n (3 : Fin 5))) := by
  rw [val_main_v90_apply, ← corner_v86]
  refine congrArg (val_main_v86 (F := Ideal) x0 x2) ?_
  funext d; match d with | ⟨0, _⟩ => rfl | ⟨1, _⟩ => rfl

/-- The ground-truth boxes' stacked corners at box `n`, corner `k`. -/
theorem truth_corner (x0 : S4000000x2.Idx → BitVec 32) (x2 : S4000000x5.Idx → EReal)
    (n : Fin 4000000) (k : Fin 4) :
    val_main_v92 (F := Ideal) x0 x2 (ix2 n k)
      = corner halfQuot (centre (x0 (ix2 n (0 : Fin 2)))) (centre (x0 (ix2 n (1 : Fin 2))))
          (x2 (ix2 n (1 : Fin 5))) (x2 (ix2 n (2 : Fin 5))) (x2 (ix2 n (3 : Fin 5))) (x2 (ix2 n (4 : Fin 5))) k := by
  have hi : ∀ (c : Fin 4) (b : Fin S4000000x1x1.rank),
      b.cast (rfl : S4000000x1x1.rank = S4000000x1x4.rank) ≠ (2 : Fin S4000000x1x4.rank) →
      ((ix3 n (0 : Fin 1) (0 : Fin 1) : S4000000x1x1.Idx) b).val
        = ((ix3 n (0 : Fin 1) c : S4000000x1x4.Idx) (b.cast rfl)).val := by
    intro c b hb
    match b with
    | ⟨0, _⟩ => rfl
    | ⟨1, _⟩ => rfl
    | ⟨2, _⟩ => exact absurd rfl hb
  have e : idx_main_v92 (ix2 n k) = ix3 n (0 : Fin 1) k := by
    funext d
    have hn := n.isLt; have hk := k.isLt
    match d with
    | ⟨0, _⟩ => exact Fin.ext (by show (n.val * 4 + k.val) / 4 = n.val; omega)
    | ⟨1, _⟩ => rfl
    | ⟨2, _⟩ => exact Fin.ext (by show (n.val * 4 + k.val) % 4 = k.val; omega)
  rw [val_main_v92_apply, e]
  unfold val_main_v91
  match k with
  | ⟨0, _⟩ =>
    refine (concatenate_apply_piece (2 : Fin S4000000x1x4.rank) _ _ (ix3 n (0 : Fin 1) ⟨0, _⟩) 0
      (by exact (by decide : 0 < 4)) S4000000x1x1
      (val_main_v87 (F := Ideal) x0 x2) rfl rfl 0 rfl (ix3 n (0 : Fin 1) (0 : Fin 1)) (hi _) rfl).trans ?_
    exact corner_v87 x0 x2 n
  | ⟨1, _⟩ =>
    refine (concatenate_apply_piece (2 : Fin S4000000x1x4.rank) _ _ (ix3 n (0 : Fin 1) ⟨1, _⟩) 1
      (by exact (by decide : 1 < 4)) S4000000x1x1
      (val_main_v88 (F := Ideal) x0 x2) rfl rfl 1 rfl (ix3 n (0 : Fin 1) (0 : Fin 1)) (hi _) rfl).trans ?_
    exact corner_v88 x0 x2 n
  | ⟨2, _⟩ =>
    refine (concatenate_apply_piece (2 : Fin S4000000x1x4.rank) _ _ (ix3 n (0 : Fin 1) ⟨2, _⟩) 2
      (by exact (by decide : 2 < 4)) S4000000x1x1
      (val_main_v89 (F := Ideal) x0 x2) rfl rfl 2 rfl (ix3 n (0 : Fin 1) (0 : Fin 1)) (hi _) rfl).trans ?_
    exact corner_v89 x0 x2 n
  | ⟨3, _⟩ =>
    refine (concatenate_apply_piece (2 : Fin S4000000x1x4.rank) _ _ (ix3 n (0 : Fin 1) ⟨3, _⟩) 3
      (by exact (by decide : 3 < 4)) S4000000x1x1
      (val_main_v90 (F := Ideal) x0 x2) rfl rfl 3 rfl (ix3 n (0 : Fin 1) (0 : Fin 1)) (hi _) rfl).trans ?_
    exact corner_v90 x0 x2 n

end Cert.ReferenceIdeal.RefValue

end
-- ==== Proof.RefResult.lean ====
/-
  The reference's result, index by index: from the two stacked corner arrays it takes the areas, the
  larger of the low corners and the smaller of the high ones, clips the differences at zero, multiplies
  them into the intersection and divides by the union. Entry `(n, a)` is the intersection over union of
  anchor `a` of box `n` with box `n`'s ground truth, half taken as the quotient by two.

  The proof only reads each stage at an index. A slice followed by a reshape reads the stacked corners at
  `(n, a, k)` resp. `(n, k)` with `k` the slice's offset: the reshape's flat position `n · 5 + a` splits
  back into `n` and `a`. A broadcast over the anchors forgets `a`. With every stage read, the two sides are
  the same expression in the eight corners.
-/
import proofs.«123306_j31336081391713_1_alg».proof.Proof.RefCorners

noncomputable section

namespace Cert.ReferenceIdeal.RefValue

open Cert.ReferenceIdeal Cert.ReferenceIdeal.Gen Cert.ReferenceIdeal.Read Idealize.ShloMosaic Idealize.ShloMosaic.ValueIdx Cert.BoxIou

namespace ResultRead

/-! ## Index equations: the slices' and reshapes' composite indices are indices by coordinates -/

/-- A slice of the predicted corners' last axis at offset 2, read through the reshape, at `(n, a)`. -/
theorem idx_pred_2 (n : Fin 4000000) (a : Fin 5) :
    idx_main_v93 (idx_main_v94 (ix2 n a)) = ix3 n a (2 : Fin 4) := by
  funext d
  have hn := n.isLt
  have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => exact Fin.ext (by show 2 + 0 = 2; rfl)

/-- The same at offset 0. -/
theorem idx_pred_0 (n : Fin 4000000) (a : Fin 5) :
    idx_main_v95 (idx_main_v96 (ix2 n a)) = ix3 n a (0 : Fin 4) := by
  funext d
  have hn := n.isLt
  have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => exact Fin.ext (by show (0 : Nat) = 0; rfl)

/-- The same at offset 3. -/
theorem idx_pred_3 (n : Fin 4000000) (a : Fin 5) :
    idx_main_v98 (idx_main_v99 (ix2 n a)) = ix3 n a (3 : Fin 4) := by
  funext d
  have hn := n.isLt
  have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => exact Fin.ext (by show 3 + 0 = 3; rfl)

/-- The same at offset 1. -/
theorem idx_pred_1 (n : Fin 4000000) (a : Fin 5) :
    idx_main_v100 (idx_main_v101 (ix2 n a)) = ix3 n a (1 : Fin 4) := by
  funext d
  have hn := n.isLt
  have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => exact Fin.ext (by show 1 + 0 = 1; rfl)

/-- A slice of the truth's corners at offset 2, read through the reshape, at `n`. -/
theorem idx_truth_2 (n : Fin 4000000) :
    idx_main_v104 (idx_main_v105 (ix1 n)) = ix2 n (2 : Fin 4) := by
  funext d
  match d with
  | ⟨0, _⟩ => exact Fin.ext (by show n.val / 1 = n.val; omega)
  | ⟨1, _⟩ => exact Fin.ext (by show 2 + 0 = 2; rfl)

/-- The same at offset 0. -/
theorem idx_truth_0 (n : Fin 4000000) :
    idx_main_v106 (idx_main_v107 (ix1 n)) = ix2 n (0 : Fin 4) := by
  funext d
  match d with
  | ⟨0, _⟩ => exact Fin.ext (by show n.val / 1 = n.val; omega)
  | ⟨1, _⟩ => exact Fin.ext (by show (0 : Nat) = 0; rfl)

/-- The same at offset 3. -/
theorem idx_truth_3 (n : Fin 4000000) :
    idx_main_v109 (idx_main_v110 (ix1 n)) = ix2 n (3 : Fin 4) := by
  funext d
  match d with
  | ⟨0, _⟩ => exact Fin.ext (by show n.val / 1 = n.val; omega)
  | ⟨1, _⟩ => exact Fin.ext (by show 3 + 0 = 3; rfl)

/-- The same at offset 1. -/
theorem idx_truth_1 (n : Fin 4000000) :
    idx_main_v111 (idx_main_v112 (ix1 n)) = ix2 n (1 : Fin 4) := by
  funext d
  match d with
  | ⟨0, _⟩ => exact Fin.ext (by show n.val / 1 = n.val; omega)
  | ⟨1, _⟩ => exact Fin.ext (by show 1 + 0 = 1; rfl)

/-- The clipped sides' entry 0, read through the reshape, at `(n, a)`. -/
theorem idx_side_0 (n : Fin 4000000) (a : Fin 5) :
    idx_main_v127 (idx_main_v128 (ix2 n a)) = ix3 n a (0 : Fin 2) := by
  funext d
  have hn := n.isLt
  have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => exact Fin.ext (by show (0 : Nat) = 0; rfl)

/-- The clipped sides' entry 1, read through the reshape, at `(n, a)`. -/
theorem idx_side_1 (n : Fin 4000000) (a : Fin 5) :
    idx_main_v129 (idx_main_v130 (ix2 n a)) = ix3 n a (1 : Fin 2) := by
  funext d
  have hn := n.isLt
  have ha := a.isLt
  match d with
  | ⟨0, _⟩ => exact Fin.ext (by show (n.val * 5 + a.val) / 5 = n.val; omega)
  | ⟨1, _⟩ => exact Fin.ext (by show (n.val * 5 + a.val) / 1 % 5 = a.val; omega)
  | ⟨2, _⟩ => exact Fin.ext (by show 1 + 0 = 1; rfl)

/-- The low corners' pair (offset 0) of the predicted boxes at `(n, a, k)`. -/
theorem idx_lowP (n : Fin 4000000) (a : Fin 5) (k : Fin 2) :
    idx_main_v115 (ix3 n a k) = ix3 n a (⟨k.val, by omega⟩ : Fin 4) := by
  funext d
  match d with
  | ⟨0, _⟩ => rfl
  | ⟨1, _⟩ => rfl
  | ⟨2, _⟩ => rfl

/-- The high corners' pair (offset 2) of the predicted boxes at `(n, a, k)`. -/
theorem idx_highP (n : Fin 4000000) (a : Fin 5) (k : Fin 2) :
    idx_main_v120 (ix3 n a k) = ix3 n a (⟨2 + k.val, by omega⟩ : Fin 4) := by
  funext d
  match d with
  | ⟨0, _⟩ => rfl
  | ⟨1, _⟩ => rfl
  | ⟨2, _⟩ => rfl

/-- The low corners' pair of the truth, broadcast over the anchors, at `(n, a, k)`. -/
theorem idx_lowG (n : Fin 4000000) (a : Fin 5) (k : Fin 2) :
    idx_main_v116 (idx_main_v117 (idx_main_v118 (ix3 n a k))) = ix2 n (⟨k.val, by omega⟩ : Fin 4) := by
  funext d
  match d with
  | ⟨0, _⟩ => rfl
  | ⟨1, _⟩ => rfl

/-- The high corners' pair of the truth, broadcast over the anchors, at `(n, a, k)`. -/
theorem idx_highG (n : Fin 4000000) (a : Fin 5) (k : Fin 2) :
    idx_main_v121 (idx_main_v122 (idx_main_v123 (ix3 n a k))) = ix2 n (⟨2 + k.val, by omega⟩ : Fin 4) := by
  funext d
  match d with
  | ⟨0, _⟩ => rfl
  | ⟨1, _⟩ => rfl

/-- The truth's area, broadcast over the anchors, at `(n, a)`. -/
theorem idx_areaG (n : Fin 4000000) (a : Fin 5) :
    idx_main_v132 (idx_main_v133 (ix2 n a)) = ix1 n := by
  funext d
  match d with
  | ⟨0, _⟩ => rfl

/-! ## The stages read at an index, down to the two stacked corner arrays -/

section Read
variable (x0 : S4000000x2.Idx → BitVec 32) (x1 : S4000000x5x5.Idx → EReal) (x2 : S4000000x5.Idx → EReal)
  (n : Fin 4000000) (a : Fin 5)

/-- The predicted box's area: `(x₂ − x₁) · (y₂ − y₁)` of the stacked corners. -/
theorem read_areaP :
    val_main_v103 (F := Ideal) x0 x1 (ix2 n a)
      = (val_main_v48 (F := Ideal) x0 x1 (ix3 n a (2 : Fin 4)) - val_main_v48 (F := Ideal) x0 x1 (ix3 n a (0 : Fin 4)))
        * (val_main_v48 (F := Ideal) x0 x1 (ix3 n a (3 : Fin 4)) - val_main_v48 (F := Ideal) x0 x1 (ix3 n a (1 : Fin 4))) := by
  rw [val_main_v103_apply, val_main_v97_apply, val_main_v102_apply,
    val_main_v94_apply, val_main_v93_apply, idx_pred_2,
    val_main_v96_apply, val_main_v95_apply, idx_pred_0,
    val_main_v99_apply, val_main_v98_apply, idx_pred_3,
    val_main_v101_apply, val_main_v100_apply, idx_pred_1]
  rfl

/-- The truth's area: `(x₂ − x₁) · (y₂ − y₁)` of the stacked corners. -/
theorem read_areaG :
    val_main_v114 (F := Ideal) x0 x2 (ix1 n)
      = (val_main_v92 (F := Ideal) x0 x2 (ix2 n (2 : Fin 4)) - val_main_v92 (F := Ideal) x0 x2 (ix2 n (0 : Fin 4)))
        * (val_main_v92 (F := Ideal) x0 x2 (ix2 n (3 : Fin 4)) - val_main_v92 (F := Ideal) x0 x2 (ix2 n (1 : Fin 4))) := by
  rw [val_main_v114_apply, val_main_v108_apply, val_main_v113_apply,
    val_main_v105_apply, val_main_v104_apply, idx_truth_2,
    val_main_v107_apply, val_main_v106_apply, idx_truth_0,
    val_main_v110_apply, val_main_v109_apply, idx_truth_3,
    val_main_v112_apply, val_main_v111_apply, idx_truth_1]
  rfl

/-- The truth's area broadcast over the anchors. -/
theorem read_areaG_bcast :
    val_main_v133 (F := Ideal) x0 x2 (ix2 n a) = val_main_v114 (F := Ideal) x0 x2 (ix1 n) := by
  rw [val_main_v133_apply, val_main_v132_apply, idx_areaG]

/-- The clipped difference at `(n, a, k)`: zero or the smaller high corner less the larger low corner. -/
theorem read_clip (k : Fin 2) :
    val_main_v126 (F := Ideal) x0 x1 x2 (ix3 n a k)
      = max zeroF
          (min (val_main_v48 (F := Ideal) x0 x1 (ix3 n a (⟨2 + k.val, by omega⟩ : Fin 4)))
               (val_main_v92 (F := Ideal) x0 x2 (ix2 n (⟨2 + k.val, by omega⟩ : Fin 4)))
           - max (val_main_v48 (F := Ideal) x0 x1 (ix3 n a (⟨k.val, by omega⟩ : Fin 4)))
                 (val_main_v92 (F := Ideal) x0 x2 (ix2 n (⟨k.val, by omega⟩ : Fin 4)))) := by
  rw [val_main_v126_apply, val_main_call0_v1_apply, val_main_call0_v0_apply, val_main_cst_23_apply,
    val_main_v125_apply, val_main_v124_apply, val_main_v119_apply,
    val_main_v120_apply, idx_highP,
    val_main_v123_apply, val_main_v122_apply, val_main_v121_apply, idx_highG,
    val_main_v115_apply, idx_lowP,
    val_main_v118_apply, val_main_v117_apply, val_main_v116_apply, idx_lowG]
  rfl

/-- The intersection's `x` side. -/
theorem read_side0 :
    val_main_v128 (F := Ideal) x0 x1 x2 (ix2 n a)
      = max zeroF
          (min (val_main_v48 (F := Ideal) x0 x1 (ix3 n a (2 : Fin 4))) (val_main_v92 (F := Ideal) x0 x2 (ix2 n (2 : Fin 4)))
           - max (val_main_v48 (F := Ideal) x0 x1 (ix3 n a (0 : Fin 4))) (val_main_v92 (F := Ideal) x0 x2 (ix2 n (0 : Fin 4)))) := by
  rw [val_main_v128_apply, val_main_v127_apply, idx_side_0, read_clip]
  rfl

/-- The intersection's `y` side. -/
theorem read_side1 :
    val_main_v130 (F := Ideal) x0 x1 x2 (ix2 n a)
      = max zeroF
          (min (val_main_v48 (F := Ideal) x0 x1 (ix3 n a (3 : Fin 4))) (val_main_v92 (F := Ideal) x0 x2 (ix2 n (3 : Fin 4)))
           - max (val_main_v48 (F := Ideal) x0 x1 (ix3 n a (1 : Fin 4))) (val_main_v92 (F := Ideal) x0 x2 (ix2 n (1 : Fin 4)))) := by
  rw [val_main_v130_apply, val_main_v129_apply, idx_side_1, read_clip]
  rfl

end Read

end ResultRead

open ResultRead in
/-- The reference's last stage is the result. -/
theorem ref_result (x0 : S4000000x2.Idx → BitVec 32) (x1 : S4000000x5x5.Idx → EReal) (x2 : S4000000x5.Idx → EReal) :
    val_main_v136 (F := Ideal) x0 x1 x2 = result halfQuot x0 x1 x2 := by
  funext i
  obtain ⟨n, a, rfl⟩ : ∃ (n : Fin 4000000) (a : Fin 5), i = ix2 n a := ⟨i 0, i 1, eq_ix2 i⟩
  rw [result_apply, val_main_v136_apply, val_main_v135_apply, val_main_v134_apply, val_main_v131_apply,
    read_areaP, read_areaG_bcast, read_areaG, read_side0, read_side1]
  simp only [pred_corner, truth_corner]
  rfl

end Cert.ReferenceIdeal.RefValue

end
-- ==== Proof.lean ====
/-
  The kernel computes, for 4,000,000 boxes and 5 anchors each, the intersection over union of a
  predicted box with the box's ground truth; it lays the boxes along the last axis and handles 32000 of
  them per grid point. The reference computes the same quantity with the boxes along the first axis.
  Both are the one formula of Proof/BoxIou.lean: the kernel halves a size by multiplying with 0.5, the
  reference by dividing by 2, which on the extended reals is the same function. The kernel's run with its
  result named is Proof/KerRun.lean; the reference's result index by index is Proof/RefResult.lean over
  the reference's generated run.
-/
import proofs.«123306_j31336081391713_1_alg».proof.Defs
import proofs.«123306_j31336081391713_1_alg».proof.Proof.Gen.Kernel
import proofs.«123306_j31336081391713_1_alg».proof.Proof.Gen.Kernel.Skeleton
import proofs.«123306_j31336081391713_1_alg».proof.Proof.Gen.Kernel.Launch
import proofs.«123306_j31336081391713_1_alg».proof.Proof.Gen.Kernel.Points
import proofs.«123306_j31336081391713_1_alg».proof.Proof.Gen.Kernel.Frame
import proofs.«123306_j31336081391713_1_alg».proof.Proof.Gen.KernelIdeal
import proofs.«123306_j31336081391713_1_alg».proof.Proof.Gen.KernelIdeal.Skeleton
import proofs.«123306_j31336081391713_1_alg».proof.Proof.Gen.KernelIdeal.Launch
import proofs.«123306_j31336081391713_1_alg».proof.Proof.Gen.KernelIdeal.Points
import proofs.«123306_j31336081391713_1_alg».proof.Proof.Gen.KernelIdeal.Frame
import proofs.«123306_j31336081391713_1_alg».proof.Proof.Gen.ReferenceIdeal
import proofs.«123306_j31336081391713_1_alg».proof.Proof.Gen.Pre_finite_inputs
import proofs.«123306_j31336081391713_1_alg».proof.Proof.Gen.ReferenceIdeal.Run
import proofs.«123306_j31336081391713_1_alg».proof.Proof.Gen.ReferenceIdeal.Read
import proofs.«123306_j31336081391713_1_alg».proof.Proof.KerRun
import proofs.«123306_j31336081391713_1_alg».proof.Proof.RefResult
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the one formula's array of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v136_eq, Cert.ReferenceIdeal.RefValue.ref_result, (hagree c).1, (hagree c).2.1, (hagree c).2.2,
    Cert.BoxIou.result_quot_eq_prod]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
